-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S2x65536 : Shape := ⟨2, ![2, 65536]⟩
abbrev S65536x2 : Shape := ⟨2, ![65536, 2]⟩
abbrev S8x64 : Shape := ⟨2, ![8, 64]⟩
abbrev S100000x768 : Shape := ⟨2, ![100000, 768]⟩
abbrev S38x768 : Shape := ⟨2, ![38, 768]⟩
abbrev S768 : Shape := ⟨1, ![768]⟩
abbrev S2304x768 : Shape := ⟨2, ![2304, 768]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S38x768 : S_.BroadcastsInDim S38x768 (![] : Fin 0 → Fin S38x768.rank)
  reducesTo_S38x768_S_d0_1 : S38x768.ReducesTo [0, 1] S_
  bcast_S_S768 : S_.BroadcastsInDim S768 (![] : Fin 0 → Fin S768.rank)
  reducesTo_S768_S_d0 : S768.ReducesTo [0] S_
  bcast_S_S2304x768 : S_.BroadcastsInDim S2304x768 (![] : Fin 0 → Fin S2304x768.rank)
  reducesTo_S2304x768_S_d0_1 : S2304x768.ReducesTo [0, 1] S_

variable [Facts]

def fn_part1 {F : FTy → Type} [FloatOps F] (main_arg7 : FVec F S2304x768 .f32) (main_arg8 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S2304x768 .f32 := Host.absf main_arg7
  let main_cst_6 : FVec F S_ .f32 := constant S_ .f32 0x7F800000#32
  let main_v20 : FVec F S2304x768 .f32 := broadcastInDim S2304x768 ![] bcast_S_S2304x768 main_cst_6
  let main_v21 : IVec S2304x768 1 := cmpf .olt main_v19 main_v20
  let main_c_7 : IVec S_ 1 := constantI S_ 1 1#1
  let main_v22 : IVec S_ 1 := (fun x v => Host.reduce IntOp.andi x v reducesTo_S2304x768_S_d0_1 h_S_) main_v21 main_c_7
  let main_v23 : IVec S_ 1 := andi main_v18 main_v22
  let main_v24 : FVec F S768 .f32 := Host.absf main_arg8
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : IVec S8192 32) (main_arg1 : IVec S2x65536 32) (main_arg2 : FVec F S65536x2 .f32) (main_arg3 : IVec S8x64 32) (main_arg4 : FVec F S100000x768 .f32) (main_arg5 : FVec F S38x768 .f32) (main_arg6 : FVec F S768 .f32) (main_arg7 : FVec F S2304x768 .f32) (main_arg8 : FVec F S768 .f32) : IVec S_ 1 :=
  let main_v0 : FVec F S65536x2 .f32 := Host.absf main_arg2
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S100000x768 .f32 := Host.absf main_arg4
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S38x768 .f32 := Host.absf main_arg5
  let main_cst_2 : FVec F S_ .f32 := constant S_ .f32 0x7F800000#32
  let main_v10 : FVec F S38x768 .f32 := broadcastInDim S38x768 ![] bcast_S_S38x768 main_cst_2
  let main_v11 : IVec S38x768 1 := cmpf .olt main_v9 main_v10
  let main_c_3 : IVec S_ 1 := constantI S_ 1 1#1
  let main_v12 : IVec S_ 1 := (fun x v => Host.reduce IntOp.andi x v reducesTo_S38x768_S_d0_1 h_S_) main_v11 main_c_3
  let main_v13 : IVec S_ 1 := andi main_v8 main_v12
  let main_v14 : FVec F S768 .f32 := Host.absf main_arg6
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg7 main_arg8 main_v13 main_v16
-- ==== Kernel.lean ====
abbrev S8192 : Shape := ⟨1, ![8192]⟩
abbrev S2x65536 : Shape := ⟨2, ![2, 65536]⟩
abbrev S65536x2 : Shape := ⟨2, ![65536, 2]⟩
abbrev S8x64 : Shape := ⟨2, ![8, 64]⟩
abbrev S100000x768 : Shape := ⟨2, ![100000, 768]⟩
abbrev S38x768 : Shape := ⟨2, ![38, 768]⟩
abbrev S768 : Shape := ⟨1, ![768]⟩
abbrev S2304x768 : Shape := ⟨2, ![2304, 768]⟩
abbrev S_ : Shape := ⟨0, ![]⟩
abbrev S8192x1 : Shape := ⟨2, ![8192, 1]⟩
abbrev S8192x768 : Shape := ⟨2, ![8192, 768]⟩
abbrev S65536x1 : Shape := ⟨2, ![65536, 1]⟩
abbrev S65536 : Shape := ⟨1, ![65536]⟩
abbrev S65536x768 : Shape := ⟨2, ![65536, 768]⟩
abbrev S1x8192 : Shape := ⟨2, ![1, 8192]⟩
abbrev S2x8192 : Shape := ⟨2, ![2, 8192]⟩
abbrev S2x73728 : Shape := ⟨2, ![2, 73728]⟩
abbrev S73728x768 : Shape := ⟨2, ![73728, 768]⟩
abbrev S73728 : Shape := ⟨1, ![73728]⟩
abbrev S1x73728 : Shape := ⟨2, ![1, 73728]⟩
abbrev S73728x1 : Shape := ⟨2, ![73728, 1]⟩
abbrev S768x768 : Shape := ⟨2, ![768, 768]⟩
abbrev S1x768 : Shape := ⟨2, ![1, 768]⟩
abbrev S2048x768 : Shape := ⟨2, ![2048, 768]⟩
abbrev S73728x3 : Shape := ⟨2, ![73728, 3]⟩
abbrev S8x64x1 : Shape := ⟨3, ![8, 64, 1]⟩
abbrev S1x1x73728 : Shape := ⟨3, ![1, 1, 73728]⟩
abbrev S8x64x73728 : Shape := ⟨3, ![8, 64, 73728]⟩
abbrev S8x73728 : Shape := ⟨2, ![8, 73728]⟩

abbrev nBuf : Space → Nat
  | .hbm => 114
  | .vmem => 12
  | .smem => 0
  | _ => 0

abbrev bufTy : (tb : Table) → Fin (tcTables nBuf tb) → BufTy
  | .hbm, ⟨0, _⟩ => ⟨S8192, .i32⟩
  | .hbm, ⟨1, _⟩ => ⟨S2x65536, .i32⟩
  | .hbm, ⟨2, _⟩ => ⟨S65536x2, .f32⟩
  | .hbm, ⟨3, _⟩ => ⟨S8x64, .i32⟩
  | .hbm, ⟨4, _⟩ => ⟨S100000x768, .f32⟩
  | .hbm, ⟨5, _⟩ => ⟨S38x768, .f32⟩
  | .hbm, ⟨6, _⟩ => ⟨S768, .f32⟩
  | .hbm, ⟨7, _⟩ => ⟨S2304x768, .f32⟩
  | .hbm, ⟨8, _⟩ => ⟨S768, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x768, .f32⟩
  | .hbm, ⟨18, _⟩ => ⟨S8192x768, .bf16⟩
  | .hbm, ⟨19, _⟩ => ⟨S65536x1, .f32⟩
  | .hbm, ⟨20, _⟩ => ⟨S65536, .f32⟩
  | .hbm, ⟨21, _⟩ => ⟨S65536, .i32⟩
  | .hbm, ⟨22, _⟩ => ⟨S65536x1, .f32⟩
  | .hbm, ⟨23, _⟩ => ⟨S65536, .f32⟩
  | .hbm, ⟨24, _⟩ => ⟨S65536x1, .f32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x768, .f32⟩
  | .hbm, ⟨34, _⟩ => ⟨S65536x768, .f32⟩
  | .hbm, ⟨35, _⟩ => ⟨S65536x768, .f32⟩
  | .hbm, ⟨36, _⟩ => ⟨S8192, .i32⟩
  | .hbm, ⟨37, _⟩ => ⟨S1x8192, .i32⟩
  | .hbm, ⟨38, _⟩ => ⟨S1x8192, .i32⟩
  | .hbm, ⟨39, _⟩ => ⟨S2x8192, .i32⟩
  | .hbm, ⟨40, _⟩ => ⟨S2x73728, .i32⟩
  | .hbm, ⟨41, _⟩ => ⟨S8192x768, .f32⟩
  | .hbm, ⟨42, _⟩ => ⟨S73728x768, .f32⟩
  | .hbm, ⟨43, _⟩ => ⟨S73728x768, .bf16⟩
  | .hbm, ⟨44, _⟩ => ⟨S_, .i32⟩
  | .hbm, ⟨45, _⟩ => ⟨S8192, .i32⟩
  | .hbm, ⟨46, _⟩ => ⟨S73728, .i32⟩
  | .hbm, ⟨47, _⟩ => ⟨S1x73728, .i32⟩
  | .hbm, ⟨48, _⟩ => ⟨S73728, .i32⟩
  | .hbm, ⟨49, _⟩ => ⟨S1x73728, .i32⟩
  | .hbm, ⟨50, _⟩ => ⟨S73728, .i32⟩
  | .hbm, ⟨51, _⟩ => ⟨S_, .i32⟩
  | .hbm, ⟨52, _⟩ => ⟨S73728, .i32⟩
  | .hbm, ⟨53, _⟩ => ⟨S73728, .i1⟩
  | .hbm, ⟨54, _⟩ => ⟨S_, .i32⟩
  | .hbm, ⟨55, _⟩ => ⟨S73728, .i32⟩
  | .hbm, ⟨56, _⟩ => ⟨S73728, .i32⟩
  | .hbm, ⟨57, _⟩ => ⟨S73728, .i32⟩
  | .hbm, ⟨58, _⟩ => ⟨S73728x1, .i32⟩
  | .hbm, ⟨59, _⟩ => ⟨S73728x768, .bf16⟩
  | .hbm, ⟨60, _⟩ => ⟨S_, .i32⟩
  | .hbm, ⟨61, _⟩ => ⟨S73728, .i32⟩
  | .hbm, ⟨62, _⟩ => ⟨S73728, .i1⟩
  | .hbm, ⟨63, _⟩ => ⟨S_, .i32⟩
  | .hbm, ⟨64, _⟩ => ⟨S73728, .i32⟩
  | .hbm, ⟨65, _⟩ => ⟨S73728, .i32⟩
  | .hbm, ⟨66, _⟩ => ⟨S73728, .i32⟩
  | .hbm, ⟨67, _⟩ => ⟨S73728x1, .i32⟩
  | .hbm, ⟨68, _⟩ => ⟨S73728x768, .bf16⟩
  | .hbm, ⟨69, _⟩ => ⟨S768x768, .f32⟩
  | .hbm, ⟨70, _⟩ => ⟨S768x768, .bf16⟩
  | .hbm, ⟨71, _⟩ => ⟨S768x768, .f32⟩
  | .hbm, ⟨72, _⟩ => ⟨S768x768, .bf16⟩
  | .hbm, ⟨73, _⟩ => ⟨S768x768, .f32⟩
  | .hbm, ⟨74, _⟩ => ⟨S768x768, .bf16⟩
  | .hbm, ⟨75, _⟩ => ⟨S1x768, .f32⟩
  | .hbm, ⟨76, _⟩ => ⟨S73728x768, .f32⟩
  | .hbm, ⟨77, _⟩ => ⟨S_, .i32⟩
  | .hbm, ⟨78, _⟩ => ⟨S73728, .i32⟩
  | .hbm, ⟨79, _⟩ => ⟨S73728, .i1⟩
  | .hbm, ⟨80, _⟩ => ⟨S_, .i32⟩
  | .hbm, ⟨81, _⟩ => ⟨S73728, .i32⟩
  | .hbm, ⟨82, _⟩ => ⟨S73728, .i32⟩
  | .hbm, ⟨83, _⟩ => ⟨S73728, .i32⟩
  | .hbm, ⟨84, _⟩ => ⟨S73728x1, .i32⟩
  | .hbm, ⟨85, _⟩ => ⟨S73728, .i32⟩
  | .hbm, ⟨86, _⟩ => ⟨S_, .i32⟩
  | .hbm, ⟨87, _⟩ => ⟨S73728, .i32⟩
  | .hbm, ⟨88, _⟩ => ⟨S73728, .i1⟩
  | .hbm, ⟨89, _⟩ => ⟨S_, .i32⟩
  | .hbm, ⟨90, _⟩ => ⟨S73728, .i32⟩
  | .hbm, ⟨91, _⟩ => ⟨S73728, .i32⟩
  | .hbm, ⟨92, _⟩ => ⟨S73728, .i32⟩
  | .hbm, ⟨93, _⟩ => ⟨S73728x1, .i32⟩
  | .hbm, ⟨94, _⟩ => ⟨S73728, .i32⟩
  | .hbm, ⟨95, _⟩ => ⟨S73728x1, .i32⟩
  | .hbm, ⟨96, _⟩ => ⟨S73728x1, .i32⟩
  | .hbm, ⟨97, _⟩ => ⟨S73728x1, .i32⟩
  | .hbm, ⟨98, _⟩ => ⟨S73728x3, .i32⟩
  | .hbm, ⟨99, _⟩ => ⟨S8x64x1, .i32⟩
  | .hbm, ⟨100, _⟩ => ⟨S1x1x73728, .i32⟩
  | .hbm, ⟨101, _⟩ => ⟨S8x64x73728, .i32⟩
  | .hbm, ⟨102, _⟩ => ⟨S8x64x73728, .i32⟩
  | .hbm, ⟨103, _⟩ => ⟨S8x64x73728, .i1⟩
  | .hbm, ⟨104, _⟩ => ⟨S_, .i1⟩
  | .hbm, ⟨105, _⟩ => ⟨S8x73728, .i1⟩
  | .hbm, ⟨106, _⟩ => ⟨S8x64x1, .i32⟩
  | .hbm, ⟨107, _⟩ => ⟨S1x1x73728, .i32⟩
  | .hbm, ⟨108, _⟩ => ⟨S8x64x73728, .i32⟩
  | .hbm, ⟨109, _⟩ => ⟨S8x64x73728, .i32⟩
  | .hbm, ⟨110, _⟩ => ⟨S8x64x73728, .i1⟩
  | .hbm, ⟨111, _⟩ => ⟨S_, .i1⟩
  | .hbm, ⟨112, _⟩ => ⟨S8x73728, .i1⟩
  | .hbm, ⟨113, _⟩ => ⟨S8x73728, .i1⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S768x768, .bf16⟩
  | .local _ .vmem, ⟨7, _⟩ => ⟨S768x768, .bf16⟩
  | .local _ .vmem, ⟨8, _⟩ => ⟨S768x768, .bf16⟩
  | .local _ .vmem, ⟨9, _⟩ => ⟨S1x768, .f32⟩
  | .local _ .vmem, ⟨10, _⟩ => ⟨S2048x768, .f32⟩
  | .local _ .vmem, ⟨11, _⟩ => ⟨S2048x768, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_c_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_13 : Ref sig .tc := ⟨.hbm, 111, rfl⟩
abbrev main_v88 : Ref sig .tc := ⟨.hbm, 112, rfl⟩
abbrev main_v89 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x768_0_1 : S65536x1.BroadcastsInDim S65536x768 (![0, 1] : Fin 2 → Fin S65536x768.rank)
  bcast_S8192_S1x8192_1 : S8192.BroadcastsInDim S1x8192 (![1] : Fin 1 → Fin S1x8192.rank)
  concatenates_S1x8192_S1x8192_S2x8192_d0 : Shape.Concatenates [S1x8192, S1x8192] S2x8192 0
  concatenates_S2x65536_S2x8192_S2x73728_d1 : Shape.Concatenates [S2x65536, S2x8192] S2x73728 1
  bcast_S768_S8192x768_1 : S768.BroadcastsInDim S8192x768 (![1] : Fin 1 → Fin S8192x768.rank)
  concatenates_S65536x768_S8192x768_S73728x768_d0 : Shape.Concatenates [S65536x768, S8192x768] S73728x768 0
  concatenates_S65536_S8192_S73728_d0 : Shape.Concatenates [S65536, S8192] S73728 0
  slices_S2x73728_S1x73728_0_0 : S2x73728.Slices ![0, 0] S1x73728
  shapeCasts_S1x73728_S73728 : S1x73728.ShapeCasts S73728
  slices_S2x73728_S1x73728_1_0 : S2x73728.Slices ![1, 0] S1x73728
  bcast_S_S73728 : S_.BroadcastsInDim S73728 (![] : Fin 0 → Fin S73728.rank)
  bcast_S73728_S73728x1_0 : S73728.BroadcastsInDim S73728x1 (![0] : Fin 1 → Fin S73728x1.rank)
  slices_S2304x768_S768x768_0_0 : S2304x768.Slices ![0, 0] S768x768
  slices_S2304x768_S768x768_768_0 : S2304x768.Slices ![768, 0] S768x768
  slices_S2304x768_S768x768_1536_0 : S2304x768.Slices ![1536, 0] S768x768
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  concatenates_S73728x1_S73728x1_S73728x1_S73728x3_d1 : Shape.Concatenates [S73728x1, S73728x1, S73728x1] S73728x3 1
  bcast_S8x64_S8x64x1_0_1 : S8x64.BroadcastsInDim S8x64x1 (![0, 1] : Fin 2 → Fin S8x64x1.rank)
  bcast_S73728_S1x1x73728_2 : S73728.BroadcastsInDim S1x1x73728 (![2] : Fin 1 → Fin S1x1x73728.rank)
  bcast_S8x64x1_S8x64x73728_0_1_2 : S8x64x1.BroadcastsInDim S8x64x73728 (![0, 1, 2] : Fin 3 → Fin S8x64x73728.rank)
  bcast_S1x1x73728_S8x64x73728_0_1_2 : S1x1x73728.BroadcastsInDim S8x64x73728 (![0, 1, 2] : Fin 3 → Fin S8x64x73728.rank)
  reducesTo_S8x64x73728_S8x73728_d1 : S8x64x73728.ReducesTo [1] S8x73728
  h_S_ : 0 < S_.numel
  gather_S100000x768_S8192x1_S8192x768_1_0_n_n_0_1_1768_wf : GatherDims.WF S100000x768 S8192x1 S8192x768 [1] [0] [] [0] [] 1 ![1, 768]
  gather_S38x768_S65536x1_S65536x768_1_0_n_n_0_1_1768_wf : GatherDims.WF S38x768 S65536x1 S65536x768 [1] [0] [] [0] [] 1 ![1, 768]
  gather_S8192x768_S73728x1_S73728x768_1_0_n_n_0_1_1768_wf : GatherDims.WF S8192x768 S73728x1 S73728x768 [1] [0] [] [0] [] 1 ![1, 768]
  dot_S2048x768_S768x768_S2048x768_1_0_0_1_n_n_wf : DotDims.WF S2048x768 S768x768 S2048x768 [1] [0] [0] [1] [] []
  gather_S8192_S73728x1_S73728_n_0_n_n_0_1_1_wf : GatherDims.WF S8192 S73728x1 S73728 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S73728x768.size a
  hwx0_0 : ∀ i : grid0.Coords, EltTy.bits .bf16 = 32 ∨ (Rect.block (s := S73728x768) S2048x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S73728x768.size a
  hwx0_1 : ∀ i : grid0.Coords, EltTy.bits .bf16 = 32 ∨ (Rect.block (s := S73728x768) S2048x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S73728x768.size a
  hwx0_2 : ∀ i : grid0.Coords, EltTy.bits .bf16 = 32 ∨ (Rect.block (s := S73728x768) S2048x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x768.size a ≤ S73728x768.size a
  hwx0_7 : ∀ i : grid0.Coords, EltTy.bits .f32 = 32 ∨ (Rect.block (s := S73728x768) S2048x768.size (cc0_transform_7 i) (hinb0_7 i)).WholeWords (EltTy.packing .f32)

variable [Facts₀]

def gather_S100000x768_S8192x1_S8192x768_1_0_n_n_0_1_1768 : GatherDims S100000x768 S8192x1 S8192x768 where
  offsetDims := [1]
  collapsedSliceDims := [0]
  operandBatchingDims := []
  startIndicesBatchingDims := []
  startIndexMap := [0]
  indexVectorDim := 1
  sliceSizes := ![1, 768]
  wf := gather_S100000x768_S8192x1_S8192x768_1_0_n_n_0_1_1768_wf
def gather_S38x768_S65536x1_S65536x768_1_0_n_n_0_1_1768 : GatherDims S38x768 S65536x1 S65536x768 where
  offsetDims := [1]
  collapsedSliceDims := [0]
  operandBatchingDims := []
  startIndicesBatchingDims := []
  startIndexMap := [0]
  indexVectorDim := 1
  sliceSizes := ![1, 768]
  wf := gather_S38x768_S65536x1_S65536x768_1_0_n_n_0_1_1768_wf
def gather_S8192x768_S73728x1_S73728x768_1_0_n_n_0_1_1768 : GatherDims S8192x768 S73728x1 S73728x768 where
  offsetDims := [1]
  collapsedSliceDims := [0]
  operandBatchingDims := []
  startIndicesBatchingDims := []
  startIndexMap := [0]
  indexVectorDim := 1
  sliceSizes := ![1, 768]
  wf := gather_S8192x768_S73728x1_S73728x768_1_0_n_n_0_1_1768_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def gather_S8192_S73728x1_S73728_n_0_n_n_0_1_1 : GatherDims S8192 S73728x1 S73728 where
  offsetDims := []
  collapsedSliceDims := [0]
  operandBatchingDims := []
  startIndicesBatchingDims := []
  startIndexMap := [0]
  indexVectorDim := 1
  sliceSizes := ![1]
  wf := gather_S8192_S73728x1_S73728_n_0_n_n_0_1_1_wf

abbrev win0_0 : Pipeline.Window sig grid0 :=
  Pipeline.Window.ofSpec (Memref.whole main_v43) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S2048x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v54) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S2048x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192 : Shape := ⟨1, ![8192]⟩
abbrev S2x65536 : Shape := ⟨2, ![2, 65536]⟩
abbrev S65536x2 : Shape := ⟨2, ![65536, 2]⟩
abbrev S8x64 : Shape := ⟨2, ![8, 64]⟩
abbrev S100000x768 : Shape := ⟨2, ![100000, 768]⟩
abbrev S38x768 : Shape := ⟨2, ![38, 768]⟩
abbrev S768 : Shape := ⟨1, ![768]⟩
abbrev S2304x768 : Shape := ⟨2, ![2304, 768]⟩
abbrev S_ : Shape := ⟨0, ![]⟩
abbrev S8192x1 : Shape := ⟨2, ![8192, 1]⟩
abbrev S8192x768 : Shape := ⟨2, ![8192, 768]⟩
abbrev S65536x1 : Shape := ⟨2, ![65536, 1]⟩
abbrev S65536 : Shape := ⟨1, ![65536]⟩
abbrev S65536x768 : Shape := ⟨2, ![65536, 768]⟩
abbrev S1x8192 : Shape := ⟨2, ![1, 8192]⟩
abbrev S2x8192 : Shape := ⟨2, ![2, 8192]⟩
abbrev S2x73728 : Shape := ⟨2, ![2, 73728]⟩
abbrev S73728x768 : Shape := ⟨2, ![73728, 768]⟩
abbrev S73728 : Shape := ⟨1, ![73728]⟩
abbrev S1x73728 : Shape := ⟨2, ![1, 73728]⟩
abbrev S73728x1 : Shape := ⟨2, ![73728, 1]⟩
abbrev S73728x2304 : Shape := ⟨2, ![73728, 2304]⟩
abbrev S1x768 : Shape := ⟨2, ![1, 768]⟩
abbrev S73728x3 : Shape := ⟨2, ![73728, 3]⟩
abbrev S8x64x1 : Shape := ⟨3, ![8, 64, 1]⟩
abbrev S1x1x73728 : Shape := ⟨3, ![1, 1, 73728]⟩
abbrev S8x64x73728 : Shape := ⟨3, ![8, 64, 73728]⟩
abbrev S8x73728 : Shape := ⟨2, ![8, 73728]⟩

abbrev nBuf : Space → Nat
  | .hbm => 109
  | .vmem => 0
  | .smem => 0
  | _ => 0

abbrev bufTy : (tb : Table) → Fin (tcTables nBuf tb) → BufTy
  | .hbm, ⟨0, _⟩ => ⟨S8192, .i32⟩
  | .hbm, ⟨1, _⟩ => ⟨S2x65536, .i32⟩
  | .hbm, ⟨2, _⟩ => ⟨S65536x2, .f32⟩
  | .hbm, ⟨3, _⟩ => ⟨S8x64, .i32⟩
  | .hbm, ⟨4, _⟩ => ⟨S100000x768, .f32⟩
  | .hbm, ⟨5, _⟩ => ⟨S38x768, .f32⟩
  | .hbm, ⟨6, _⟩ => ⟨S768, .f32⟩
  | .hbm, ⟨7, _⟩ => ⟨S2304x768, .f32⟩
  | .hbm, ⟨8, _⟩ => ⟨S768, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x768, .f32⟩
  | .hbm, ⟨18, _⟩ => ⟨S65536x1, .f32⟩
  | .hbm, ⟨19, _⟩ => ⟨S65536, .f32⟩
  | .hbm, ⟨20, _⟩ => ⟨S65536, .i32⟩
  | .hbm, ⟨21, _⟩ => ⟨S65536x1, .f32⟩
  | .hbm, ⟨22, _⟩ => ⟨S65536, .f32⟩
  | .hbm, ⟨23, _⟩ => ⟨S65536x1, .f32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S65536x768, .f32⟩
  | .hbm, ⟨33, _⟩ => ⟨S65536x768, .f32⟩
  | .hbm, ⟨34, _⟩ => ⟨S65536x768, .f32⟩
  | .hbm, ⟨35, _⟩ => ⟨S8192, .i32⟩
  | .hbm, ⟨36, _⟩ => ⟨S1x8192, .i32⟩
  | .hbm, ⟨37, _⟩ => ⟨S1x8192, .i32⟩
  | .hbm, ⟨38, _⟩ => ⟨S2x8192, .i32⟩
  | .hbm, ⟨39, _⟩ => ⟨S2x73728, .i32⟩
  | .hbm, ⟨40, _⟩ => ⟨S8192x768, .f32⟩
  | .hbm, ⟨41, _⟩ => ⟨S73728x768, .f32⟩
  | .hbm, ⟨42, _⟩ => ⟨S_, .i32⟩
  | .hbm, ⟨43, _⟩ => ⟨S8192, .i32⟩
  | .hbm, ⟨44, _⟩ => ⟨S73728, .i32⟩
  | .hbm, ⟨45, _⟩ => ⟨S1x73728, .i32⟩
  | .hbm, ⟨46, _⟩ => ⟨S73728, .i32⟩
  | .hbm, ⟨47, _⟩ => ⟨S1x73728, .i32⟩
  | .hbm, ⟨48, _⟩ => ⟨S73728, .i32⟩
  | .hbm, ⟨49, _⟩ => ⟨S_, .i32⟩
  | .hbm, ⟨50, _⟩ => ⟨S73728, .i32⟩
  | .hbm, ⟨51, _⟩ => ⟨S73728, .i1⟩
  | .hbm, ⟨52, _⟩ => ⟨S_, .i32⟩
  | .hbm, ⟨53, _⟩ => ⟨S73728, .i32⟩
  | .hbm, ⟨54, _⟩ => ⟨S73728, .i32⟩
  | .hbm, ⟨55, _⟩ => ⟨S73728, .i32⟩
  | .hbm, ⟨56, _⟩ => ⟨S73728x1, .i32⟩
  | .hbm, ⟨57, _⟩ => ⟨S73728x768, .f32⟩
  | .hbm, ⟨58, _⟩ => ⟨S_, .i32⟩
  | .hbm, ⟨59, _⟩ => ⟨S73728, .i32⟩
  | .hbm, ⟨60, _⟩ => ⟨S73728, .i1⟩
  | .hbm, ⟨61, _⟩ => ⟨S_, .i32⟩
  | .hbm, ⟨62, _⟩ => ⟨S73728, .i32⟩
  | .hbm, ⟨63, _⟩ => ⟨S73728, .i32⟩
  | .hbm, ⟨64, _⟩ => ⟨S73728, .i32⟩
  | .hbm, ⟨65, _⟩ => ⟨S73728x1, .i32⟩
  | .hbm, ⟨66, _⟩ => ⟨S73728x768, .f32⟩
  | .hbm, ⟨67, _⟩ => ⟨S73728x2304, .f32⟩
  | .hbm, ⟨68, _⟩ => ⟨S73728x768, .f32⟩
  | .hbm, ⟨69, _⟩ => ⟨S1x768, .f32⟩
  | .hbm, ⟨70, _⟩ => ⟨S73728x768, .f32⟩
  | .hbm, ⟨71, _⟩ => ⟨S73728x768, .f32⟩
  | .hbm, ⟨72, _⟩ => ⟨S_, .i32⟩
  | .hbm, ⟨73, _⟩ => ⟨S73728, .i32⟩
  | .hbm, ⟨74, _⟩ => ⟨S73728, .i1⟩
  | .hbm, ⟨75, _⟩ => ⟨S_, .i32⟩
  | .hbm, ⟨76, _⟩ => ⟨S73728, .i32⟩
  | .hbm, ⟨77, _⟩ => ⟨S73728, .i32⟩
  | .hbm, ⟨78, _⟩ => ⟨S73728, .i32⟩
  | .hbm, ⟨79, _⟩ => ⟨S73728x1, .i32⟩
  | .hbm, ⟨80, _⟩ => ⟨S73728, .i32⟩
  | .hbm, ⟨81, _⟩ => ⟨S_, .i32⟩
  | .hbm, ⟨82, _⟩ => ⟨S73728, .i32⟩
  | .hbm, ⟨83, _⟩ => ⟨S73728, .i1⟩
  | .hbm, ⟨84, _⟩ => ⟨S_, .i32⟩
  | .hbm, ⟨85, _⟩ => ⟨S73728, .i32⟩
  | .hbm, ⟨86, _⟩ => ⟨S73728, .i32⟩
  | .hbm, ⟨87, _⟩ => ⟨S73728, .i32⟩
  | .hbm, ⟨88, _⟩ => ⟨S73728x1, .i32⟩
  | .hbm, ⟨89, _⟩ => ⟨S73728, .i32⟩
  | .hbm, ⟨90, _⟩ => ⟨S73728x1, .i32⟩
  | .hbm, ⟨91, _⟩ => ⟨S73728x1, .i32⟩
  | .hbm, ⟨92, _⟩ => ⟨S73728x1, .i32⟩
  | .hbm, ⟨93, _⟩ => ⟨S73728x3, .i32⟩
  | .hbm, ⟨94, _⟩ => ⟨S8x64x1, .i32⟩
  | .hbm, ⟨95, _⟩ => ⟨S1x1x73728, .i32⟩
  | .hbm, ⟨96, _⟩ => ⟨S8x64x73728, .i32⟩
  | .hbm, ⟨97, _⟩ => ⟨S8x64x73728, .i32⟩
  | .hbm, ⟨98, _⟩ => ⟨S8x64x73728, .i1⟩
  | .hbm, ⟨99, _⟩ => ⟨S_, .i1⟩
  | .hbm, ⟨100, _⟩ => ⟨S8x73728, .i1⟩
  | .hbm, ⟨101, _⟩ => ⟨S8x64x1, .i32⟩
  | .hbm, ⟨102, _⟩ => ⟨S1x1x73728, .i32⟩
  | .hbm, ⟨103, _⟩ => ⟨S8x64x73728, .i32⟩
  | .hbm, ⟨104, _⟩ => ⟨S8x64x73728, .i32⟩
  | .hbm, ⟨105, _⟩ => ⟨S8x64x73728, .i1⟩
  | .hbm, ⟨106, _⟩ => ⟨S_, .i1⟩
  | .hbm, ⟨107, _⟩ => ⟨S8x73728, .i1⟩
  | .hbm, ⟨108, _⟩ => ⟨S8x73728, .i1⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_13 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S65536_S65536x1_0 : S65536.BroadcastsInDim S65536x1 (![0] : Fin 1 → Fin S65536x1.rank)
  bcast_S_S65536 : S_.BroadcastsInDim S65536 (![] : Fin 0 → Fin S65536.rank)
  bcast_S65536x1_S65536x768_0_1 : S65536x1.BroadcastsInDim S65536x768 (![0, 1] : Fin 2 → Fin S65536x768.rank)
  bcast_S8192_S1x8192_1 : S8192.BroadcastsInDim S1x8192 (![1] : Fin 1 → Fin S1x8192.rank)
  concatenates_S1x8192_S1x8192_S2x8192_d0 : Shape.Concatenates [S1x8192, S1x8192] S2x8192 0
  concatenates_S2x65536_S2x8192_S2x73728_d1 : Shape.Concatenates [S2x65536, S2x8192] S2x73728 1
  bcast_S768_S8192x768_1 : S768.BroadcastsInDim S8192x768 (![1] : Fin 1 → Fin S8192x768.rank)
  concatenates_S65536x768_S8192x768_S73728x768_d0 : Shape.Concatenates [S65536x768, S8192x768] S73728x768 0
  concatenates_S65536_S8192_S73728_d0 : Shape.Concatenates [S65536, S8192] S73728 0
  slices_S2x73728_S1x73728_0_0 : S2x73728.Slices ![0, 0] S1x73728
  shapeCasts_S1x73728_S73728 : S1x73728.ShapeCasts S73728
  slices_S2x73728_S1x73728_1_0 : S2x73728.Slices ![1, 0] S1x73728
  bcast_S_S73728 : S_.BroadcastsInDim S73728 (![] : Fin 0 → Fin S73728.rank)
  bcast_S73728_S73728x1_0 : S73728.BroadcastsInDim S73728x1 (![0] : Fin 1 → Fin S73728x1.rank)
  concatenates_S73728x768_S73728x768_S73728x768_S73728x2304_d1 : Shape.Concatenates [S73728x768, S73728x768, S73728x768] S73728x2304 1
  bcast_S768_S1x768_1 : S768.BroadcastsInDim S1x768 (![1] : Fin 1 → Fin S1x768.rank)
  bcast_S1x768_S73728x768_0_1 : S1x768.BroadcastsInDim S73728x768 (![0, 1] : Fin 2 → Fin S73728x768.rank)
  concatenates_S73728x1_S73728x1_S73728x1_S73728x3_d1 : Shape.Concatenates [S73728x1, S73728x1, S73728x1] S73728x3 1
  bcast_S8x64_S8x64x1_0_1 : S8x64.BroadcastsInDim S8x64x1 (![0, 1] : Fin 2 → Fin S8x64x1.rank)
  bcast_S73728_S1x1x73728_2 : S73728.BroadcastsInDim S1x1x73728 (![2] : Fin 1 → Fin S1x1x73728.rank)
  bcast_S8x64x1_S8x64x73728_0_1_2 : S8x64x1.BroadcastsInDim S8x64x73728 (![0, 1, 2] : Fin 3 → Fin S8x64x73728.rank)
  bcast_S1x1x73728_S8x64x73728_0_1_2 : S1x1x73728.BroadcastsInDim S8x64x73728 (![0, 1, 2] : Fin 3 → Fin S8x64x73728.rank)
  reducesTo_S8x64x73728_S8x73728_d1 : S8x64x73728.ReducesTo [1] S8x73728
  h_S_ : 0 < S_.numel
  gather_S100000x768_S8192x1_S8192x768_1_0_n_n_0_1_1768_wf : GatherDims.WF S100000x768 S8192x1 S8192x768 [1] [0] [] [0] [] 1 ![1, 768]
  gather_S38x768_S65536x1_S65536x768_1_0_n_n_0_1_1768_wf : GatherDims.WF S38x768 S65536x1 S65536x768 [1] [0] [] [0] [] 1 ![1, 768]
  gather_S8192x768_S73728x1_S73728x768_1_0_n_n_0_1_1768_wf : GatherDims.WF S8192x768 S73728x1 S73728x768 [1] [0] [] [0] [] 1 ![1, 768]
  dot_S73728x2304_S2304x768_S73728x768_1_0_0_1_n_n_wf : DotDims.WF S73728x2304 S2304x768 S73728x768 [1] [0] [0] [1] [] []
  gather_S8192_S73728x1_S73728_n_0_n_n_0_1_1_wf : GatherDims.WF S8192 S73728x1 S73728 [] [0] [] [0] [] 1 ![1]

variable [Facts₀]

def gather_S100000x768_S8192x1_S8192x768_1_0_n_n_0_1_1768 : GatherDims S100000x768 S8192x1 S8192x768 where
  offsetDims := [1]
  collapsedSliceDims := [0]
  operandBatchingDims := []
  startIndicesBatchingDims := []
  startIndexMap := [0]
  indexVectorDim := 1
  sliceSizes := ![1, 768]
  wf := gather_S100000x768_S8192x1_S8192x768_1_0_n_n_0_1_1768_wf
def gather_S38x768_S65536x1_S65536x768_1_0_n_n_0_1_1768 : GatherDims S38x768 S65536x1 S65536x768 where
  offsetDims := [1]
  collapsedSliceDims := [0]
  operandBatchingDims := []
  startIndicesBatchingDims := []
  startIndexMap := [0]
  indexVectorDim := 1
  sliceSizes := ![1, 768]
  wf := gather_S38x768_S65536x1_S65536x768_1_0_n_n_0_1_1768_wf
def gather_S8192x768_S73728x1_S73728x768_1_0_n_n_0_1_1768 : GatherDims S8192x768 S73728x1 S73728x768 where
  offsetDims := [1]
  collapsedSliceDims := [0]
  operandBatchingDims := []
  startIndicesBatchingDims := []
  startIndexMap := [0]
  indexVectorDim := 1
  sliceSizes := ![1, 768]
  wf := gather_S8192x768_S73728x1_S73728x768_1_0_n_n_0_1_1768_wf
def dot_S73728x2304_S2304x768_S73728x768_1_0_0_1_n_n : DotDims S73728x2304 S2304x768 S73728x768 where
  lhsContracting := [1]
  rhsContracting := [0]
  lhsNonContracting := [0]
  rhsNonContracting := [1]
  lhsBatch := []
  rhsBatch := []
  wf := dot_S73728x2304_S2304x768_S73728x768_1_0_0_1_n_n_wf
def gather_S8192_S73728x1_S73728_n_0_n_n_0_1_1 : GatherDims S8192 S73728x1 S73728 where
  offsetDims := []
  collapsedSliceDims := [0]
  operandBatchingDims := []
  startIndicesBatchingDims := []
  startIndexMap := [0]
  indexVectorDim := 1
  sliceSizes := ![1]
  wf := gather_S8192_S73728x1_S73728_n_0_n_n_0_1_1_wf

class Facts : Prop extends Facts₀ where

variable [Facts]
-- ==== Proof.RefEdge.lean ====
/-
  The edge features and the relation ids after the reference's run.

  The reference is a straight line of one hundred host operations.  Its thirty-third writes the edge features (the relation
  rows gathered by the relation column and scaled by the weight column, with the self-loop row broadcast below them) and
  its thirty-fifth the relation ids (the relation column converted to integers, followed by 8192 copies of 38); no later
  operation writes either buffer, and none writes an argument.  So after the run each of the two buffers holds the value
  those operations compute from the launch contents of the arguments they read.
-/
import proofs.«129182_j25692494364677_1_alg».proof.Proof.RefRead
import Idealize.ShloMosaic.Lib.StableHlo.Run

set_option maxRecDepth 16384

noncomputable section

namespace Cert.ReferenceIdeal.Straight

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

variable (m : (ℓ : Loc nD τ sig) → Buf (Elt Ideal) ℓ)

/-! ## The edge features and the relation ids after the reference's run -/

/-- The edge features: what the reference's thirty-third operation writes (the relation rows gathered by the relation
    column, scaled by the weight column, with the self-loop row broadcast below them), as a function of the launch
    contents of the three arguments it is built from.  No later operation writes that buffer. -/
theorem ref_v28 (c : Dev nD) : after (ops (F := Ideal)) (launchContents m c) (Proc.devRef .tc main_v28) = val_main_v28 (F := Ideal) (m ((c.tc : Thread nD τ).loc main_arg2)) (m ((c.tc : Thread nD τ).loc main_arg5)) (m ((c.tc : Thread nD τ).loc main_arg6)) := by
  simp only [ops]
  after_results_simp
  rfl

/-- The relation ids: the relation column converted to integers, followed by 8192 copies of 38. -/
theorem ref_v30 (c : Dev nD) : after (ops (F := Ideal)) (launchContents m c) (Proc.devRef .tc main_v30) = val_main_v30 (F := Ideal) (m ((c.tc : Thread nD τ).loc main_arg2)) := by
  simp only [ops]
  after_results_simp
  rfl

end Cert.ReferenceIdeal.Straight

end
-- ==== Proof.LibNary3.lean ====
/-
  A host operation over a family of three operand buffers, read at its result buffer, and a three-piece concatenation
  compared piece by piece.  The operation's value is its function applied to the family of the operands' contents; for
  a family written out as three references, the family of contents is the three contents, each read at its own
  reference.  Nothing here names a program.
-/
import Idealize.ShloMosaic.Lib.StableHlo.Run

namespace Cert.Nary3

open Idealize.ShloMosaic Idealize.ShloMosaic.StableHlo Idealize.SL.Sem

variable {τ : Topo} {sig : RefSig} {Val : EltTy → Type} {x a b y : Ref sig .tc}

/-- An operation over the three operands `x`, `a`, `b`, at its result buffer `y`: its function applied to the contents
    of `x`, of `a` and of `b` consed one onto the other, each at its own reference (in place of the family
    `fun k => F ↑(![x, a, b] k)`, whose reference under the binder is no literal), so that the operands' contents can be
    rewritten in turn. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for a function that reads the family at `0`, `1` and `2` only, `fun u => g (u 0) (u 1) (u 2)`: the
    result is `g` of the three contents, and no family is left. -/
theorem nary3_result_fun
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  (nary_result ![x, a, b] y _ hxs hy F).trans rfl

/-- Two concatenations of three pieces of one shape, along one axis into one shape, are equal when the pieces are,
    first with first, second with second, third with third. -/
theorem concat3_congr {α : Type} {t : Shape} (a : Fin t.rank) {s : Shape} {A A' B B' C C' : s.Idx → α}
    (h : Shape.Concatenates (([⟨s, A⟩, ⟨s, B⟩, ⟨s, C⟩] : List ((s : Shape) × (s.Idx → α))).map (·.1)) t a)
    (h' : Shape.Concatenates (([⟨s, A'⟩, ⟨s, B'⟩, ⟨s, C'⟩] : List ((s : Shape) × (s.Idx → α))).map (·.1)) t a)
    (hA : A = A') (hB : B = B') (hC : C = C') :
    concatenate t a [⟨s, A⟩, ⟨s, B⟩, ⟨s, C⟩] h = concatenate t a [⟨s, A'⟩, ⟨s, B'⟩, ⟨s, C'⟩] h' := by
  subst hA hB hC; rfl

end Cert.Nary3
-- ==== Proof.RefProj.lean ====
/-
  The reference's projection result is its staged value.

  The reference's run leaves every buffer at the fold of the hundred operations' results over the launch contents.
  Read at the projection result that fold is, operation by operation, the staged value: the sum of the product of the
  three gathered operands joined side by side with the weight, and of the bias row broadcast to every row.  The two
  gathered row blocks are read first, each as the staged value of its own operation; the joined operand is then the
  concatenation of three pieces equal piece by piece, and the product and the sum over it are the same operations on
  equal operands.
-/
import proofs.«129182_j25692494364677_1_alg».proof.Proof.RefRead
import proofs.«129182_j25692494364677_1_alg».proof.Proof.RefEdge
import proofs.«129182_j25692494364677_1_alg».proof.Proof.LibNary3
import Idealize.ShloMosaic.Lib.StableHlo.Run
import Idealize.ShloMosaic.PureOps.Ideal

set_option maxRecDepth 16384

noncomputable section

namespace Cert.ReferenceIdeal.Straight

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

variable (m : (ℓ : Loc nD τ sig) → Buf (Elt Ideal) ℓ)

/-- Each operation's result at its own result buffer is its function of its operands' contents, and at any other
    buffer what was there: the fold read down to the arguments, every operation over one, two or three single
    operands. -/
local macro "results_pass" : tactic =>
  `(tactic| simp (disch := decide) only [after_cons, after_nil,
      nullary_result', unary_result', binary_result', ternary_result', reshape_result',
      nullary_result_ne', unary_result_ne', binary_result_ne', ternary_result_ne', reshape_result_ne', nary_result_ne'])

/-- An operation leaves a buffer it does not write as it was: the operations after the one that writes the buffer
    read are passed over. -/
local macro "skip_later" loc:(Lean.Parser.Tactic.location)? : tactic =>
  `(tactic| simp (disch := decide) only [after_cons, after_nil,
      nullary_result_ne', unary_result_ne', binary_result_ne', ternary_result_ne', reshape_result_ne', nary_result_ne'] $[$loc]?)

/-- The head rows: the gather of the clamped embedding rows at the wrapped head indices, the same operations of the
    same arguments on both sides. -/
theorem ref_v41 (c : Dev nD) : after (ops (F := Ideal)) (launchContents m c) (Proc.devRef .tc main_v41)
    = val_main_v41 (F := Ideal) (m ((c.tc : Thread nD τ).loc main_arg0)) (m ((c.tc : Thread nD τ).loc main_arg1)) (m ((c.tc : Thread nD τ).loc main_arg4)) := by
  results_pass
  rfl

/-- The tail rows: the same gather at the wrapped tail indices. -/
theorem ref_v48 (c : Dev nD) : after (ops (F := Ideal)) (launchContents m c) (Proc.devRef .tc main_v48)
    = val_main_v48 (F := Ideal) (m ((c.tc : Thread nD τ).loc main_arg0)) (m ((c.tc : Thread nD τ).loc main_arg1)) (m ((c.tc : Thread nD τ).loc main_arg4)) := by
  results_pass
  rfl

/-- The joined operand: head rows, edge features and tail rows side by side. The operation over the three operand
    buffers is the concatenation of their three contents; each content is the staged value of its own operation
    (the later operations write none of the three), so the two concatenations are equal piece by piece. -/
theorem ref_v49 (c : Dev nD) : after (ops (F := Ideal)) (launchContents m c) (Proc.devRef .tc main_v49)
    = val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  skip_later
  rw [Cert.Nary3.nary3_result_fun (x := main_v41) (a := main_v28) (b := main_v48) (y := main_v49) (Val := Elt Ideal)
    (g := fun A B C => concatenate S73728x2304 1 [⟨S73728x768, A⟩, ⟨S73728x768, B⟩, ⟨S73728x768, C⟩]
      concatenates_S73728x768_S73728x768_S73728x768_S73728x2304_d1)]
  refine Cert.Nary3.concat3_congr _ _ _ ?_ ?_ ?_
  · rw [← ref_v41 m c]; skip_later
  · rw [← ref_v28 m c]; skip_later
  · rw [← ref_v48 m c]; skip_later

/-- The projection: the product of the joined operand with the weight, plus the bias row broadcast to every row. The
    fold at the result is the sum of the product of the joined operand's contents with the weight argument and of the
    two broadcasts of the bias argument; the joined operand's contents are its staged value, and the staged value of
    the result is that same sum of that same product. -/
theorem ref_v53 (c : Dev nD) : after (ops (F := Ideal)) (launchContents m c) (Proc.devRef .tc main_v53)
    = val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h49 := ref_v49 m c
  skip_later at h49
  results_pass
  rw [h49]
  rfl

end Cert.ReferenceIdeal.Straight

end
-- ==== Proof.RefMaskIds.lean ====
/-
  The reference's run read at four buffers: the head and the tail index vectors, the membership mask, the triple ids.

  The reference's `@main` is one hundred host operations in a line, and a buffer ends holding the fold of the
  operations' results over the launch contents.  Read at a buffer, the fold is the last operation that writes the
  buffer applied to its operands' contents before it, and so on down to the argument buffers, which no operation
  writes and which hold their launch contents.  The staged values `val_main_vN` are the same operations composed in
  the same order over the arguments, so each buffer ends at its staged value of the launch contents of the arguments.
  The triple ids are a concatenation of three columns, compared column by column.
-/
import proofs.«129182_j25692494364677_1_alg».proof.Proof.RefRead
import proofs.«129182_j25692494364677_1_alg».proof.Proof.LibNary3
import Idealize.ShloMosaic.Lib.StableHlo.Run

set_option maxRecDepth 16384

noncomputable section

namespace Cert.ReferenceIdeal.Straight

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

variable (m : (ℓ : Loc nD τ sig) → Buf (Elt Ideal) ℓ)

/-- The buffers after a line of operations, one operation at a time from the last: an operation's result buffer holds
    its function's value of its operands' contents, and every other buffer holds what it held before the operation. -/
local macro "results_pass" : tactic => `(tactic| simp (disch := decide) only [after_cons, after_nil,
      nullary_result', unary_result', binary_result', ternary_result', reshape_result',
      nullary_result_ne', unary_result_ne', binary_result_ne', ternary_result_ne', reshape_result_ne',
      nary_result_ne'])

set_option maxHeartbeats 4000000 in
/-- The head indices: row 0 of the edge-index argument with the two rows of self loops appended, as a vector. -/
theorem ref_v32 (c : Dev nD) :
    after (ops (F := Ideal)) (launchContents m c) (Proc.devRef .tc main_v32)
      = val_main_v32 (F := Ideal) (m ((c.tc : Thread nD τ).loc main_arg1)) := by
  simp only [ops]
  results_pass
  rfl

set_option maxHeartbeats 4000000 in
/-- The tail indices: row 1 of the same concatenation. -/
theorem ref_v34 (c : Dev nD) :
    after (ops (F := Ideal)) (launchContents m c) (Proc.devRef .tc main_v34)
      = val_main_v34 (F := Ideal) (m ((c.tc : Thread nD τ).loc main_arg1)) := by
  simp only [ops]
  results_pass
  rfl

set_option maxHeartbeats 4000000 in
/-- The membership mask: the sentences' concept ids compared with the concept ids gathered at the wrapped head
    indices and reduced by `or` over a sentence's positions, the same with the tail indices, and the `or` of the two. -/
theorem ref_v84 (c : Dev nD) :
    after (ops (F := Ideal)) (launchContents m c) (Proc.devRef .tc main_v84)
      = val_main_v84 (F := Ideal) (m ((c.tc : Thread nD τ).loc main_arg0)) (m ((c.tc : Thread nD τ).loc main_arg1)) (m ((c.tc : Thread nD τ).loc main_arg3)) := by
  simp only [ops]
  results_pass
  rfl

set_option maxHeartbeats 4000000 in
/-- The triple ids: three columns joined side by side, the concept ids gathered at the wrapped head indices, the
    relation ids, the concept ids gathered at the wrapped tail indices.  The joining operation's value is the
    concatenation of the three columns' contents before it and the staged value is the concatenation of the three
    staged columns, so the columns are compared one by one. -/
theorem ref_v71 (c : Dev nD) :
    after (ops (F := Ideal)) (launchContents m c) (Proc.devRef .tc main_v71)
      = val_main_v71 (F := Ideal) (m ((c.tc : Thread nD τ).loc main_arg0)) (m ((c.tc : Thread nD τ).loc main_arg1)) (m ((c.tc : Thread nD τ).loc main_arg2)) := by
  simp only [ops]
  results_pass
  rw [Cert.Nary3.nary3_result_fun (x := main_v68) (a := main_v69) (b := main_v70) (y := main_v71) (Val := Elt Ideal)
    (fun p q r => concatenate S73728x3 1 [⟨S73728x1, p⟩, ⟨S73728x1, q⟩, ⟨S73728x1, r⟩] concatenates_S73728x1_S73728x1_S73728x1_S73728x3_d1)]
  refine Cert.Nary3.concat3_congr _ _ _ ?_ ?_ ?_
  · results_pass
    rfl
  · results_pass
    rfl
  · results_pass
    rfl

end Cert.ReferenceIdeal.Straight

end
-- ==== Proof.RefStraight.lean ====
/-
  The reference's run.  The reference is a straight line of one hundred host operations, so every weakly fair
  execution ends with each buffer at the operations' results folded over the launch contents.  Read at the three
  result buffers, that fold is the staged value of the arguments — the projection, the membership mask, the triple
  ids —; read at an argument buffer, which no operation writes, it is the launch contents.
-/
import proofs.«129182_j25692494364677_1_alg».proof.Proof.RefRead
import proofs.«129182_j25692494364677_1_alg».proof.Proof.RefProj
import proofs.«129182_j25692494364677_1_alg».proof.Proof.RefMaskIds
import Idealize.ShloMosaic.Lib.StableHlo.Run

set_option maxRecDepth 16384

noncomputable section

namespace Cert.ReferenceIdeal.Straight

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

variable (m : (ℓ : Loc nD τ sig) → Buf (Elt Ideal) ℓ) (ρ : Dev nD → PrngReg)

/-- No operation's result buffer is an argument buffer, so after all of them an argument holds its launch contents. -/
theorem ref_arg0 (c : Dev nD) : after (ops (F := Ideal)) (launchContents m c) (Proc.devRef .tc main_arg0) = m ((c.tc : Thread nD τ).loc main_arg0) := by
  after_results_simp <;> rfl
theorem ref_arg1 (c : Dev nD) : after (ops (F := Ideal)) (launchContents m c) (Proc.devRef .tc main_arg1) = m ((c.tc : Thread nD τ).loc main_arg1) := by
  after_results_simp <;> rfl
theorem ref_arg2 (c : Dev nD) : after (ops (F := Ideal)) (launchContents m c) (Proc.devRef .tc main_arg2) = m ((c.tc : Thread nD τ).loc main_arg2) := by
  after_results_simp <;> rfl
theorem ref_arg3 (c : Dev nD) : after (ops (F := Ideal)) (launchContents m c) (Proc.devRef .tc main_arg3) = m ((c.tc : Thread nD τ).loc main_arg3) := by
  after_results_simp <;> rfl
theorem ref_arg4 (c : Dev nD) : after (ops (F := Ideal)) (launchContents m c) (Proc.devRef .tc main_arg4) = m ((c.tc : Thread nD τ).loc main_arg4) := by
  after_results_simp <;> rfl
theorem ref_arg5 (c : Dev nD) : after (ops (F := Ideal)) (launchContents m c) (Proc.devRef .tc main_arg5) = m ((c.tc : Thread nD τ).loc main_arg5) := by
  after_results_simp <;> rfl
theorem ref_arg6 (c : Dev nD) : after (ops (F := Ideal)) (launchContents m c) (Proc.devRef .tc main_arg6) = m ((c.tc : Thread nD τ).loc main_arg6) := by
  after_results_simp <;> rfl
theorem ref_arg7 (c : Dev nD) : after (ops (F := Ideal)) (launchContents m c) (Proc.devRef .tc main_arg7) = m ((c.tc : Thread nD τ).loc main_arg7) := by
  after_results_simp <;> rfl
theorem ref_arg8 (c : Dev nD) : after (ops (F := Ideal)) (launchContents m c) (Proc.devRef .tc main_arg8) = m ((c.tc : Thread nD τ).loc main_arg8) := by
  after_results_simp <;> rfl

set_option maxHeartbeats 4000000 in
/-- From any memory with zero counters every weakly fair execution of the reference ends, with the three results at
    their staged values of the arguments and the arguments as launched. -/
theorem run : θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v84) = val_main_v84 (F := Ideal) (m ((c.tc : Thread nD τ).loc main_arg0)) (m ((c.tc : Thread nD τ).loc main_arg1)) (m ((c.tc : Thread nD τ).loc main_arg3))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v53).trans (ref_v53 m c), (h c main_v84).trans (ref_v84 m c),
      (h c main_v71).trans (ref_v71 m c),
      (h c main_arg0).trans (ref_arg0 m c), (h c main_arg1).trans (ref_arg1 m c), (h c main_arg2).trans (ref_arg2 m c),
      (h c main_arg3).trans (ref_arg3 m c), (h c main_arg4).trans (ref_arg4 m c), (h c main_arg5).trans (ref_arg5 m c),
      (h c main_arg6).trans (ref_arg6 m c), (h c main_arg7).trans (ref_arg7 m c), (h c main_arg8).trans (ref_arg8 m c)⟩)
    (run_seq scopedRefs_eq scopedSems_eq defs main (fun _ => ops) main_eq (fun _ => ops_sub) m ρ)

end Cert.ReferenceIdeal.Straight

end
-- ==== Proof.KernelAround.lean ====
/-
  The projection region and the host lines around it, for the program as printed: the run of `@main`, for any float family.

  `@main` is sixty-seven host operations (the embedding gathers, the edge features, the three row blocks of the
  weight), ONE pipelined region over a grid of 36 points, and thirty-seven more host operations (the triple ids
  and the membership mask).  At grid point `t` the region's body reads rows `2048·t … 2048·t + 2047` of the three
  gathered operands, the three weight blocks and the bias row whole, and overwrites the same rows of the result
  with  head·W₁ + rel·W₂ + tail·W₃ + bias.  It reads nothing else and keeps nothing between points, so the result
  array ends as the 36 row blocks written one after the other, every other buffer ends as the later host lines
  leave it, and no line writes an argument.
-/
import proofs.«129182_j25692494364677_1_alg».proof.Proof.Gen.Kernel.Launch
import proofs.«129182_j25692494364677_1_alg».proof.Proof.Gen.Kernel.Skeleton
import proofs.«129182_j25692494364677_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Every buffer of core `c` after the sixty-seven host operations that precede the region. -/
abbrev entryVal (c : Dev nD) : Valuation τ sig (Elt F) := StableHlo.after (List.flatten [hostOps0]) (fun b => m (c, b))
/-- One buffer of it. -/
abbrev entryAt (c : Dev nD) (b : Ref sig .tc) : Buf (Elt F) ((c : Thread nD τ).loc b) := entryVal m c (Proc.devRef .tc b)

/-- Neither stretch of host operations allocates a buffer. -/
theorem before_noalloc : (hostOps0 : List (HloOp τ sig (Elt F))).Forall fun op => op.fresh = ∅ := by
  simp only [List.Forall]; repeat' constructor
theorem later_noalloc : (hostOps1 : List (HloOp τ sig (Elt F))).Forall fun op => op.fresh = ∅ := by
  simp only [List.Forall]; repeat' constructor

/-- `@main` is the earlier lines, the region, the later lines: it comes down to the region entered at `entryAt` and
    continued by the later lines. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_noalloc) main_chain

/-! ## The later lines -/

/-- They touch unscoped TensorCore buffers only: the region's eight arrays and the buffers the region passes by. -/
theorem later_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem later_allocs_nothing : ∀ ops ∈ ([hostOps1] : List (List (HloOp τ sig (Elt F)))), ∀ op ∈ ops, op.fresh = ∅ := by
  intro ops hops op hop
  obtain rfl : ops = hostOps1 := by simpa using hops
  exact (List.forall_iff_forall_mem.mp later_noalloc) op hop

/-- No host operation's result buffer is the reference named in the goal: decided operation by operation. -/
local macro "nobody_writes" : tactic => `(tactic| (
  simp only [hostOps0, hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem v43_later : (hostOps1 : List (HloOp τ sig (Elt F))).Forall fun op => Proc.devRef .tc main_v43 ∉ op.writes := by nobody_writes
theorem v30_later : (hostOps1 : List (HloOp τ sig (Elt F))).Forall fun op => Proc.devRef .tc main_v30 ∉ op.writes := by nobody_writes
theorem v50_later : (hostOps1 : List (HloOp τ sig (Elt F))).Forall fun op => Proc.devRef .tc main_v50 ∉ op.writes := by nobody_writes
theorem v52_later : (hostOps1 : List (HloOp τ sig (Elt F))).Forall fun op => Proc.devRef .tc main_v52 ∉ op.writes := by nobody_writes
theorem v54_later : (hostOps1 : List (HloOp τ sig (Elt F))).Forall fun op => Proc.devRef .tc main_v54 ∉ op.writes := by nobody_writes
theorem v56_later : (hostOps1 : List (HloOp τ sig (Elt F))).Forall fun op => Proc.devRef .tc main_v56 ∉ op.writes := by nobody_writes
theorem v57_later : (hostOps1 : List (HloOp τ sig (Elt F))).Forall fun op => Proc.devRef .tc main_v57 ∉ op.writes := by nobody_writes
theorem v58_later : (hostOps1 : List (HloOp τ sig (Elt F))).Forall fun op => Proc.devRef .tc main_v58 ∉ op.writes := by nobody_writes

/-- Each writes its own result buffer, and none of those is one of the region's eight arrays. -/
theorem later_keeps_arrays : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  intro w
  match w with
  | ⟨0, _⟩ => exact (List.forall_iff_forall_mem.mp v43_later) op hop
  | ⟨1, _⟩ => exact (List.forall_iff_forall_mem.mp v30_later) op hop
  | ⟨2, _⟩ => exact (List.forall_iff_forall_mem.mp v50_later) op hop
  | ⟨3, _⟩ => exact (List.forall_iff_forall_mem.mp v52_later) op hop
  | ⟨4, _⟩ => exact (List.forall_iff_forall_mem.mp v54_later) op hop
  | ⟨5, _⟩ => exact (List.forall_iff_forall_mem.mp v56_later) op hop
  | ⟨6, _⟩ => exact (List.forall_iff_forall_mem.mp v57_later) op hop
  | ⟨7, _⟩ => exact (List.forall_iff_forall_mem.mp v58_later) op hop

/-! ## The argument arrays -/

/-- A buffer that none of the earlier lines writes is, at the region's entry, as launched. -/
theorem entry_untouched (c : Dev nD) (b : Ref sig .tc)
    (hb : (hostOps0 : List (HloOp τ sig (Elt F))).Forall fun op => Proc.devRef .tc b ∉ op.writes) :
    entryAt m c b = m ((c : Thread nD τ).loc b) :=
  StableHlo.after_of_forall_not_mem (b := Proc.devRef .tc b) _ _ (List.forall_iff_forall_mem.mp (by
    simpa only [List.flatten_cons, List.flatten_nil, List.append_nil] using hb))

/-- A buffer that is none of the region's arrays and that none of the later lines writes ends as it was at the entry. -/
theorem exit_untouched (dats : (p : Fin _) → (c : Dev nD) → Dat τ (Elt F) Unit ℕ (UR sig nD τ) ℕ (cfgs p) c) (c : Dev nD)
    (b : Ref sig .tc) (hne : ∀ w, Pipeline.arrRef spec0 w ≠ b)
    (hb : (hostOps1 : List (HloOp τ sig (Elt F))).Forall fun op => Proc.devRef .tc b ∉ op.writes) :
    Pipeline.afterTail₀ cfgs dats 0 (entryVal m) [hostOps1] c b = entryAt m c b := by
  unfold Pipeline.afterTail₀
  rw [StableHlo.after_of_forall_not_mem (b := Proc.devRef .tc b) _ _ (List.forall_iff_forall_mem.mp (by
      simpa only [List.flatten_cons, List.flatten_nil, List.append_nil] using hb)),
    Pipeline.withArrays_of_ne _ c (entryVal m c) _ b hne]

theorem arg0_before : (hostOps0 : List (HloOp τ sig (Elt F))).Forall fun op => Proc.devRef .tc main_arg0 ∉ op.writes := by nobody_writes
theorem arg1_before : (hostOps0 : List (HloOp τ sig (Elt F))).Forall fun op => Proc.devRef .tc main_arg1 ∉ op.writes := by nobody_writes
theorem arg2_before : (hostOps0 : List (HloOp τ sig (Elt F))).Forall fun op => Proc.devRef .tc main_arg2 ∉ op.writes := by nobody_writes
theorem arg3_before : (hostOps0 : List (HloOp τ sig (Elt F))).Forall fun op => Proc.devRef .tc main_arg3 ∉ op.writes := by nobody_writes
theorem arg4_before : (hostOps0 : List (HloOp τ sig (Elt F))).Forall fun op => Proc.devRef .tc main_arg4 ∉ op.writes := by nobody_writes
theorem arg5_before : (hostOps0 : List (HloOp τ sig (Elt F))).Forall fun op => Proc.devRef .tc main_arg5 ∉ op.writes := by nobody_writes
theorem arg6_before : (hostOps0 : List (HloOp τ sig (Elt F))).Forall fun op => Proc.devRef .tc main_arg6 ∉ op.writes := by nobody_writes
theorem arg7_before : (hostOps0 : List (HloOp τ sig (Elt F))).Forall fun op => Proc.devRef .tc main_arg7 ∉ op.writes := by nobody_writes
theorem arg8_before : (hostOps0 : List (HloOp τ sig (Elt F))).Forall fun op => Proc.devRef .tc main_arg8 ∉ op.writes := by nobody_writes
theorem arg0_later : (hostOps1 : List (HloOp τ sig (Elt F))).Forall fun op => Proc.devRef .tc main_arg0 ∉ op.writes := by nobody_writes
theorem arg1_later : (hostOps1 : List (HloOp τ sig (Elt F))).Forall fun op => Proc.devRef .tc main_arg1 ∉ op.writes := by nobody_writes
theorem arg2_later : (hostOps1 : List (HloOp τ sig (Elt F))).Forall fun op => Proc.devRef .tc main_arg2 ∉ op.writes := by nobody_writes
theorem arg3_later : (hostOps1 : List (HloOp τ sig (Elt F))).Forall fun op => Proc.devRef .tc main_arg3 ∉ op.writes := by nobody_writes
theorem arg4_later : (hostOps1 : List (HloOp τ sig (Elt F))).Forall fun op => Proc.devRef .tc main_arg4 ∉ op.writes := by nobody_writes
theorem arg5_later : (hostOps1 : List (HloOp τ sig (Elt F))).Forall fun op => Proc.devRef .tc main_arg5 ∉ op.writes := by nobody_writes
theorem arg6_later : (hostOps1 : List (HloOp τ sig (Elt F))).Forall fun op => Proc.devRef .tc main_arg6 ∉ op.writes := by nobody_writes
theorem arg7_later : (hostOps1 : List (HloOp τ sig (Elt F))).Forall fun op => Proc.devRef .tc main_arg7 ∉ op.writes := by nobody_writes
theorem arg8_later : (hostOps1 : List (HloOp τ sig (Elt F))).Forall fun op => Proc.devRef .tc main_arg8 ∉ op.writes := by nobody_writes

end Cert.Kernel.Around

end
-- ==== Proof.KernelRegion.lean ====
/-
  The projection region's body and the run of `@main` around it, for any float family.
-/
import proofs.«129182_j25692494364677_1_alg».proof.Proof.KernelAround

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point computes -/

/-- The 2048 × 768 block the body stores: head·W₁ + rel·W₂ + tail·W₃ + the bias row, from the three operand
    blocks, the three weight blocks and the bias row. -/
def projBlock (xh ea xt : Vec F S2048x768 .bf16) (w1 w2 w3 : Vec F S768x768 .bf16) (b : Vec F S1x768 .f32) :
    FVec F S2048x768 .f32 :=
  k0_pay1 xh w1 ea w2 xt w3 b

theorem zero_offsets : (![0, 0] : Fin 2 → ℕ) = fun _ => 0 := by
  funext a; fin_cases a <;> rfl

set_option maxHeartbeats 1000000 in
/-- The body on whole staging buffers: the seven inputs are read and left as they were, the output buffer, whatever
    it held, ends at `projBlock` of the inputs. -/
theorem body_runs (c : Dev nD) (E : Set ℕ) (i : grid0.Coords)
    (a1 : Memref sig .tc .vmem S2048x768 .bf16) (h1 : a1.IsWhole) (a2 : Memref sig .tc .vmem S2048x768 .bf16) (h2 : a2.IsWhole)
    (a3 : Memref sig .tc .vmem S2048x768 .bf16) (h3 : a3.IsWhole) (a4 : Memref sig .tc .vmem S768x768 .bf16) (h4 : a4.IsWhole)
    (a5 : Memref sig .tc .vmem S768x768 .bf16) (h5 : a5.IsWhole) (a6 : Memref sig .tc .vmem S768x768 .bf16) (h6 : a6.IsWhole)
    (a7 : Memref sig .tc .vmem S1x768 .f32) (h7 : a7.IsWhole) (a8 : Memref sig .tc .vmem S2048x768 .f32) (h8 : a8.IsWhole)
    (xh ea xt : Vec F S2048x768 .bf16) (w1 w2 w3 : Vec F S768x768 .bf16) (b : Vec F S1x768 .f32) (K : PUnit → sProp 𝕄) :
    iprop(owns (c : Thread nD τ) a1 fullShare xh ∗ owns (c : Thread nD τ) a2 fullShare ea ∗ owns (c : Thread nD τ) a3 fullShare xt
        ∗ owns (c : Thread nD τ) a4 fullShare w1 ∗ owns (c : Thread nD τ) a5 fullShare w2 ∗ owns (c : Thread nD τ) a6 fullShare w3
        ∗ owns (c : Thread nD τ) a7 fullShare b ∗ (∃ d, owns (c : Thread nD τ) a8 fullShare d)
        ∗ (iprop(owns (c : Thread nD τ) a1 fullShare xh ∗ owns (c : Thread nD τ) a2 fullShare ea ∗ owns (c : Thread nD τ) a3 fullShare xt
            ∗ owns (c : Thread nD τ) a4 fullShare w1 ∗ owns (c : Thread nD τ) a5 fullShare w2 ∗ owns (c : Thread nD τ) a6 fullShare w3
            ∗ owns (c : Thread nD τ) a7 fullShare b ∗ owns (c : Thread nD τ) a8 fullShare (projBlock xh ea xt w1 w2 w3 b)) -∗ K ⟨⟩))
      ⊢ wp frame (wpE (defs₀ (F := F)) Variants.none c none) E (cc0__proj_kernel i a1 h1 a2 h2 a3 h3 a4 h4 a5 h5 a6 h6 a7 h7 a8 h8) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (View.cover_of_tiled _ S2048x768.size (by rfl)), View.canon_unit_zero zero_offsets]
  simp only [View.readAt_eq_ld, View.ld_unit_zero (S := S2048x768) zero_offsets, View.ld_unit_zero (S := S768x768) zero_offsets,
    View.ld_unit_zero (S := S1x768) zero_offsets]
  rfl

/-! ## The windows' blocks and the proof data -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- What the body leaves in the output window's buffer at point `t`: the projection of that point's blocks. -/
def outAt (c : Dev nD) (t : Fin cfg0.N) : FVec F S2048x768 .f32 :=
  projBlock (blockAt m c 0 t) (blockAt m c 1 t) (blockAt m c 2 t) (blockAt m c 3 t) (blockAt m c 4 t) (blockAt m c 5 t) (blockAt m c 6 t)

/-- The proof data of the region on core `c`: the eight arrays as the region finds them; after the body at point `t`
    each input buffer still at its block and the output buffer at `outAt`; the invariant is the buffers the body never
    touches; nothing owed, full shares. -/
def regionData (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => outAt m c t
  Φ _ := Pipeline.ΦA spec0 c
  q _ := fullShare
  owed _ := 0

theorem data_arrays (c : Dev nD) (w : Fin cfg0.W) : (regionData m 0 c).A w = entryAt m c (Pipeline.arrRef spec0 w) := by
  dsimp only [regionData]

theorem data_after0 (c : Dev nD) (t : Fin cfg0.N) : (regionData m 0 c).after 0 t = blockAt m c 0 t := by dsimp only [regionData]
theorem data_after1 (c : Dev nD) (t : Fin cfg0.N) : (regionData m 0 c).after 1 t = blockAt m c 1 t := by dsimp only [regionData]
theorem data_after2 (c : Dev nD) (t : Fin cfg0.N) : (regionData m 0 c).after 2 t = blockAt m c 2 t := by dsimp only [regionData]
theorem data_after3 (c : Dev nD) (t : Fin cfg0.N) : (regionData m 0 c).after 3 t = blockAt m c 3 t := by dsimp only [regionData]
theorem data_after4 (c : Dev nD) (t : Fin cfg0.N) : (regionData m 0 c).after 4 t = blockAt m c 4 t := by dsimp only [regionData]
theorem data_after5 (c : Dev nD) (t : Fin cfg0.N) : (regionData m 0 c).after 5 t = blockAt m c 5 t := by dsimp only [regionData]
theorem data_after6 (c : Dev nD) (t : Fin cfg0.N) : (regionData m 0 c).after 6 t = blockAt m c 6 t := by dsimp only [regionData]
theorem data_after7 (c : Dev nD) (t : Fin cfg0.N) : (regionData m 0 c).after 7 t = outAt m c t := by dsimp only [regionData]

/-- An input window whose body leaves its block in place holds that block at every point, whether the pipeline fetched
    it there or not (when it did not, the block index has not moved). One statement per input window. -/
local macro "input_holds_block " w:num " with " hafter:ident : term => `(
  fun (c : Dev nD) (t : Fin cfg0.N) d =>
    (((regionData m 0 c).before_in_eq_fetched $w rfl (fun _ => rfl) (fun _ _ _ => rfl)
      (fun t => by rw [$hafter:ident]; unfold Dat.blockOf blockAt; rw [data_arrays]; try rfl) t d).trans
      (by unfold Dat.fetched Dat.blockOf blockAt; rw [data_arrays]; try rfl)))

theorem found0 : ∀ (c : Dev nD) (t : Fin cfg0.N) d, (regionData m 0 c).before 0 t d = blockAt m c 0 t := input_holds_block 0 with data_after0
theorem found1 : ∀ (c : Dev nD) (t : Fin cfg0.N) d, (regionData m 0 c).before 1 t d = blockAt m c 1 t := input_holds_block 1 with data_after1
theorem found2 : ∀ (c : Dev nD) (t : Fin cfg0.N) d, (regionData m 0 c).before 2 t d = blockAt m c 2 t := input_holds_block 2 with data_after2
theorem found3 : ∀ (c : Dev nD) (t : Fin cfg0.N) d, (regionData m 0 c).before 3 t d = blockAt m c 3 t := input_holds_block 3 with data_after3
theorem found4 : ∀ (c : Dev nD) (t : Fin cfg0.N) d, (regionData m 0 c).before 4 t d = blockAt m c 4 t := input_holds_block 4 with data_after4
theorem found5 : ∀ (c : Dev nD) (t : Fin cfg0.N) d, (regionData m 0 c).before 5 t d = blockAt m c 5 t := input_holds_block 5 with data_after5
theorem found6 : ∀ (c : Dev nD) (t : Fin cfg0.N) d, (regionData m 0 c).before 6 t d = blockAt m c 6 t := input_holds_block 6 with data_after6

/-! ## The body at a grid point -/

/-- What the pipeline hands the body at point `t`, the eight windows one by one, -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d))
    ∗ (∃ d, owns (c : Thread nD τ) (st0_6 t) fullShare ((regionData m 0 c).before 6 t d))
    ∗ (∃ d, owns (c : Thread nD τ) (st0_7 t) fullShare ((regionData m 0 c).before 7 t d)))

/-- and what it gives back. -/
def givenBack (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t)
    ∗ owns (c : Thread nD τ) (st0_6 t) fullShare ((regionData m 0 c).after 6 t)
    ∗ owns (c : Thread nD τ) (st0_7 t) fullShare ((regionData m 0 c).after 7 t))

/-- At any point the input buffers hold their blocks, so the body runs as `body_runs` says; the invariant and the
    core's dues pass through untouched. -/
theorem point_runs (c : Dev nD) (t : Fin cfg0.N) :
    handed m c t ⊢ wp frame (wpE (defs₀ (F := F)) Variants.none c none) Set.univ (bodyAt0 t) (fun _ => givenBack m c t) := by
  unfold handed givenBack bodyAt0
  simp only [found0, found1, found2, found3, found4, found5, found6]
  rw [show (regionData m 0 c).Φ t.succ = (regionData m 0 c).Φ t.castSucc from rfl,
    show (regionData m 0 c).owesAt () t.succ = (regionData m 0 c).owesAt () t.castSucc from rfl,
    data_after0, data_after1, data_after2, data_after3, data_after4, data_after5, data_after6, data_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every point. -/
theorem body_obligation (c : Dev nD) : BodyObligation (regionData (F := F) m 0 c) (defs₀ (F := F)) Variants.none () Set.univ := fun t => by
  rw [bigSep_W0, bigSep_W0]
  exact point_runs m c t

/-! ## The run -/

set_option backward.isDefEq.respectTransparency.types false in
/-- From any memory with zero counters every weakly fair execution of `@main` ends; the eight arrays end at what the
    36 write-backs leave, every other unscoped buffer at what the later host lines leave. -/
theorem run_main : θ_run defs (onTc (τ := τ) (main (F := F))) (s₀ m ρ)
    (Pipeline.FramePost cfgs (regionData m) 0 (Pipeline.afterTail₀ cfgs (regionData m) 0 (entryVal m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entryVal m) (opss := [hostOps1]) (hsub := later_within) (hfresh := later_allocs_nothing)
    (hkeep := later_keeps_arrays) (hmain := main_around m Variants.none) (hA := data_arrays m) (hΦ := fun _ _ => rfl)

/-- What the run's post says of an unscoped buffer `b` that is no array of the region and that no host line writes:
    it ends as launched. -/
theorem kept_of_run (b : Ref sig .tc) (hs : b.isScoped = false) (hne : ∀ w, Pipeline.arrRef spec0 w ≠ b)
    (h0 : (hostOps0 : List (HloOp τ sig (Elt F))).Forall fun op => Proc.devRef .tc b ∉ op.writes)
    (h1 : (hostOps1 : List (HloOp τ sig (Elt F))).Forall fun op => Proc.devRef .tc b ∉ op.writes)
    (r : PUnit × MemSt nD τ sig (Elt F))
    (h : Pipeline.FramePost cfgs (regionData m) 0 (Pipeline.afterTail₀ cfgs (regionData m) 0 (entryVal m) [hostOps1]) r) (c : Dev nD) :
    r.2.mem ((c.tc : Thread nD τ).loc b) = m ((c.tc : Thread nD τ).loc b) :=
  ((h c).2 b (Pipeline.mem_restRefs_of b hs hne)).trans ((exit_untouched m (regionData m) c b hne h1).trans (entry_untouched m c b h0))

/-- THE FRAME: every weakly fair execution ends, nothing faults, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨kept_of_run m main_arg0 (by decide) (by decide) arg0_before arg0_later r h c,
     kept_of_run m main_arg1 (by decide) (by decide) arg1_before arg1_later r h c,
     kept_of_run m main_arg2 (by decide) (by decide) arg2_before arg2_later r h c,
     kept_of_run m main_arg3 (by decide) (by decide) arg3_before arg3_later r h c,
     kept_of_run m main_arg4 (by decide) (by decide) arg4_before arg4_later r h c,
     kept_of_run m main_arg5 (by decide) (by decide) arg5_before arg5_later r h c,
     kept_of_run m main_arg6 (by decide) (by decide) arg6_before arg6_later r h c,
     kept_of_run m main_arg7 (by decide) (by decide) arg7_before arg7_later r h c,
     kept_of_run m main_arg8 (by decide) (by decide) arg8_before arg8_later r h c⟩) (run_main m ρ)

end Cert.Kernel.Around

end
-- ==== Proof.KernelIdealAround.lean ====
/-
  The projection region and the host lines around it: the run of `@main`, for any float family.

  `@main` is sixty-seven host operations (the embedding gathers, the edge features, the three row blocks of the
  weight), ONE pipelined region over a grid of 36 points, and thirty-seven more host operations (the triple ids
  and the membership mask).  At grid point `t` the region's body reads rows `2048·t … 2048·t + 2047` of the three
  gathered operands, the three weight blocks and the bias row whole, and overwrites the same rows of the result
  with  head·W₁ + rel·W₂ + tail·W₃ + bias.  It reads nothing else and keeps nothing between points, so the result
  array ends as the 36 row blocks written one after the other, every other buffer ends as the later host lines
  leave it, and no line writes an argument.
-/
import proofs.«129182_j25692494364677_1_alg».proof.Proof.Gen.KernelIdeal.Launch
import proofs.«129182_j25692494364677_1_alg».proof.Proof.Gen.KernelIdeal.Skeleton
import proofs.«129182_j25692494364677_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Every buffer of core `c` after the sixty-seven host operations that precede the region. -/
abbrev entryVal (c : Dev nD) : Valuation τ sig (Elt F) := StableHlo.after (List.flatten [hostOps0]) (fun b => m (c, b))
/-- One buffer of it. -/
abbrev entryAt (c : Dev nD) (b : Ref sig .tc) : Buf (Elt F) ((c : Thread nD τ).loc b) := entryVal m c (Proc.devRef .tc b)

/-- Neither stretch of host operations allocates a buffer. -/
theorem before_noalloc : (hostOps0 : List (HloOp τ sig (Elt F))).Forall fun op => op.fresh = ∅ := by
  simp only [List.Forall]; repeat' constructor
theorem later_noalloc : (hostOps1 : List (HloOp τ sig (Elt F))).Forall fun op => op.fresh = ∅ := by
  simp only [List.Forall]; repeat' constructor

/-- `@main` is the earlier lines, the region, the later lines: it comes down to the region entered at `entryAt` and
    continued by the later lines. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_noalloc) main_chain

/-! ## The later lines -/

/-- They touch unscoped TensorCore buffers only: the region's eight arrays and the buffers the region passes by. -/
theorem later_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem later_allocs_nothing : ∀ ops ∈ ([hostOps1] : List (List (HloOp τ sig (Elt F)))), ∀ op ∈ ops, op.fresh = ∅ := by
  intro ops hops op hop
  obtain rfl : ops = hostOps1 := by simpa using hops
  exact (List.forall_iff_forall_mem.mp later_noalloc) op hop

/-- No host operation's result buffer is the reference named in the goal: decided operation by operation. -/
local macro "nobody_writes" : tactic => `(tactic| (
  simp only [hostOps0, hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem v43_later : (hostOps1 : List (HloOp τ sig (Elt F))).Forall fun op => Proc.devRef .tc main_v43 ∉ op.writes := by nobody_writes
theorem v30_later : (hostOps1 : List (HloOp τ sig (Elt F))).Forall fun op => Proc.devRef .tc main_v30 ∉ op.writes := by nobody_writes
theorem v50_later : (hostOps1 : List (HloOp τ sig (Elt F))).Forall fun op => Proc.devRef .tc main_v50 ∉ op.writes := by nobody_writes
theorem v52_later : (hostOps1 : List (HloOp τ sig (Elt F))).Forall fun op => Proc.devRef .tc main_v52 ∉ op.writes := by nobody_writes
theorem v54_later : (hostOps1 : List (HloOp τ sig (Elt F))).Forall fun op => Proc.devRef .tc main_v54 ∉ op.writes := by nobody_writes
theorem v56_later : (hostOps1 : List (HloOp τ sig (Elt F))).Forall fun op => Proc.devRef .tc main_v56 ∉ op.writes := by nobody_writes
theorem v57_later : (hostOps1 : List (HloOp τ sig (Elt F))).Forall fun op => Proc.devRef .tc main_v57 ∉ op.writes := by nobody_writes
theorem v58_later : (hostOps1 : List (HloOp τ sig (Elt F))).Forall fun op => Proc.devRef .tc main_v58 ∉ op.writes := by nobody_writes

/-- Each writes its own result buffer, and none of those is one of the region's eight arrays. -/
theorem later_keeps_arrays : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  intro w
  match w with
  | ⟨0, _⟩ => exact (List.forall_iff_forall_mem.mp v43_later) op hop
  | ⟨1, _⟩ => exact (List.forall_iff_forall_mem.mp v30_later) op hop
  | ⟨2, _⟩ => exact (List.forall_iff_forall_mem.mp v50_later) op hop
  | ⟨3, _⟩ => exact (List.forall_iff_forall_mem.mp v52_later) op hop
  | ⟨4, _⟩ => exact (List.forall_iff_forall_mem.mp v54_later) op hop
  | ⟨5, _⟩ => exact (List.forall_iff_forall_mem.mp v56_later) op hop
  | ⟨6, _⟩ => exact (List.forall_iff_forall_mem.mp v57_later) op hop
  | ⟨7, _⟩ => exact (List.forall_iff_forall_mem.mp v58_later) op hop

/-! ## The argument arrays -/

/-- A buffer that none of the earlier lines writes is, at the region's entry, as launched. -/
theorem entry_untouched (c : Dev nD) (b : Ref sig .tc)
    (hb : (hostOps0 : List (HloOp τ sig (Elt F))).Forall fun op => Proc.devRef .tc b ∉ op.writes) :
    entryAt m c b = m ((c : Thread nD τ).loc b) :=
  StableHlo.after_of_forall_not_mem (b := Proc.devRef .tc b) _ _ (List.forall_iff_forall_mem.mp (by
    simpa only [List.flatten_cons, List.flatten_nil, List.append_nil] using hb))

/-- A buffer that is none of the region's arrays and that none of the later lines writes ends as it was at the entry. -/
theorem exit_untouched (dats : (p : Fin _) → (c : Dev nD) → Dat τ (Elt F) Unit ℕ (UR sig nD τ) ℕ (cfgs p) c) (c : Dev nD)
    (b : Ref sig .tc) (hne : ∀ w, Pipeline.arrRef spec0 w ≠ b)
    (hb : (hostOps1 : List (HloOp τ sig (Elt F))).Forall fun op => Proc.devRef .tc b ∉ op.writes) :
    Pipeline.afterTail₀ cfgs dats 0 (entryVal m) [hostOps1] c b = entryAt m c b := by
  unfold Pipeline.afterTail₀
  rw [StableHlo.after_of_forall_not_mem (b := Proc.devRef .tc b) _ _ (List.forall_iff_forall_mem.mp (by
      simpa only [List.flatten_cons, List.flatten_nil, List.append_nil] using hb)),
    Pipeline.withArrays_of_ne _ c (entryVal m c) _ b hne]

theorem arg0_before : (hostOps0 : List (HloOp τ sig (Elt F))).Forall fun op => Proc.devRef .tc main_arg0 ∉ op.writes := by nobody_writes
theorem arg1_before : (hostOps0 : List (HloOp τ sig (Elt F))).Forall fun op => Proc.devRef .tc main_arg1 ∉ op.writes := by nobody_writes
theorem arg2_before : (hostOps0 : List (HloOp τ sig (Elt F))).Forall fun op => Proc.devRef .tc main_arg2 ∉ op.writes := by nobody_writes
theorem arg3_before : (hostOps0 : List (HloOp τ sig (Elt F))).Forall fun op => Proc.devRef .tc main_arg3 ∉ op.writes := by nobody_writes
theorem arg4_before : (hostOps0 : List (HloOp τ sig (Elt F))).Forall fun op => Proc.devRef .tc main_arg4 ∉ op.writes := by nobody_writes
theorem arg5_before : (hostOps0 : List (HloOp τ sig (Elt F))).Forall fun op => Proc.devRef .tc main_arg5 ∉ op.writes := by nobody_writes
theorem arg6_before : (hostOps0 : List (HloOp τ sig (Elt F))).Forall fun op => Proc.devRef .tc main_arg6 ∉ op.writes := by nobody_writes
theorem arg7_before : (hostOps0 : List (HloOp τ sig (Elt F))).Forall fun op => Proc.devRef .tc main_arg7 ∉ op.writes := by nobody_writes
theorem arg8_before : (hostOps0 : List (HloOp τ sig (Elt F))).Forall fun op => Proc.devRef .tc main_arg8 ∉ op.writes := by nobody_writes
theorem arg0_later : (hostOps1 : List (HloOp τ sig (Elt F))).Forall fun op => Proc.devRef .tc main_arg0 ∉ op.writes := by nobody_writes
theorem arg1_later : (hostOps1 : List (HloOp τ sig (Elt F))).Forall fun op => Proc.devRef .tc main_arg1 ∉ op.writes := by nobody_writes
theorem arg2_later : (hostOps1 : List (HloOp τ sig (Elt F))).Forall fun op => Proc.devRef .tc main_arg2 ∉ op.writes := by nobody_writes
theorem arg3_later : (hostOps1 : List (HloOp τ sig (Elt F))).Forall fun op => Proc.devRef .tc main_arg3 ∉ op.writes := by nobody_writes
theorem arg4_later : (hostOps1 : List (HloOp τ sig (Elt F))).Forall fun op => Proc.devRef .tc main_arg4 ∉ op.writes := by nobody_writes
theorem arg5_later : (hostOps1 : List (HloOp τ sig (Elt F))).Forall fun op => Proc.devRef .tc main_arg5 ∉ op.writes := by nobody_writes
theorem arg6_later : (hostOps1 : List (HloOp τ sig (Elt F))).Forall fun op => Proc.devRef .tc main_arg6 ∉ op.writes := by nobody_writes
theorem arg7_later : (hostOps1 : List (HloOp τ sig (Elt F))).Forall fun op => Proc.devRef .tc main_arg7 ∉ op.writes := by nobody_writes
theorem arg8_later : (hostOps1 : List (HloOp τ sig (Elt F))).Forall fun op => Proc.devRef .tc main_arg8 ∉ op.writes := by nobody_writes

end Cert.KernelIdeal.Around

end
-- ==== Proof.KernelIdealRegion.lean ====
/-
  The projection region's body and the run of `@main` around it, for any float family.
-/
import proofs.«129182_j25692494364677_1_alg».proof.Proof.KernelIdealAround

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point computes -/

/-- The 2048 × 768 block the body stores: head·W₁ + rel·W₂ + tail·W₃ + the bias row, from the three operand
    blocks, the three weight blocks and the bias row. -/
def projBlock (xh ea xt : Vec F S2048x768 .bf16) (w1 w2 w3 : Vec F S768x768 .bf16) (b : Vec F S1x768 .f32) :
    FVec F S2048x768 .f32 :=
  k0_pay1 xh w1 ea w2 xt w3 b

theorem zero_offsets : (![0, 0] : Fin 2 → ℕ) = fun _ => 0 := by
  funext a; fin_cases a <;> rfl

set_option maxHeartbeats 1000000 in
/-- The body on whole staging buffers: the seven inputs are read and left as they were, the output buffer, whatever
    it held, ends at `projBlock` of the inputs. -/
theorem body_runs (c : Dev nD) (E : Set ℕ) (i : grid0.Coords)
    (a1 : Memref sig .tc .vmem S2048x768 .bf16) (h1 : a1.IsWhole) (a2 : Memref sig .tc .vmem S2048x768 .bf16) (h2 : a2.IsWhole)
    (a3 : Memref sig .tc .vmem S2048x768 .bf16) (h3 : a3.IsWhole) (a4 : Memref sig .tc .vmem S768x768 .bf16) (h4 : a4.IsWhole)
    (a5 : Memref sig .tc .vmem S768x768 .bf16) (h5 : a5.IsWhole) (a6 : Memref sig .tc .vmem S768x768 .bf16) (h6 : a6.IsWhole)
    (a7 : Memref sig .tc .vmem S1x768 .f32) (h7 : a7.IsWhole) (a8 : Memref sig .tc .vmem S2048x768 .f32) (h8 : a8.IsWhole)
    (xh ea xt : Vec F S2048x768 .bf16) (w1 w2 w3 : Vec F S768x768 .bf16) (b : Vec F S1x768 .f32) (K : PUnit → sProp 𝕄) :
    iprop(owns (c : Thread nD τ) a1 fullShare xh ∗ owns (c : Thread nD τ) a2 fullShare ea ∗ owns (c : Thread nD τ) a3 fullShare xt
        ∗ owns (c : Thread nD τ) a4 fullShare w1 ∗ owns (c : Thread nD τ) a5 fullShare w2 ∗ owns (c : Thread nD τ) a6 fullShare w3
        ∗ owns (c : Thread nD τ) a7 fullShare b ∗ (∃ d, owns (c : Thread nD τ) a8 fullShare d)
        ∗ (iprop(owns (c : Thread nD τ) a1 fullShare xh ∗ owns (c : Thread nD τ) a2 fullShare ea ∗ owns (c : Thread nD τ) a3 fullShare xt
            ∗ owns (c : Thread nD τ) a4 fullShare w1 ∗ owns (c : Thread nD τ) a5 fullShare w2 ∗ owns (c : Thread nD τ) a6 fullShare w3
            ∗ owns (c : Thread nD τ) a7 fullShare b ∗ owns (c : Thread nD τ) a8 fullShare (projBlock xh ea xt w1 w2 w3 b)) -∗ K ⟨⟩))
      ⊢ wp frame (wpE (defs₀ (F := F)) Variants.none c none) E (cc0__proj_kernel i a1 h1 a2 h2 a3 h3 a4 h4 a5 h5 a6 h6 a7 h7 a8 h8) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (View.cover_of_tiled _ S2048x768.size (by rfl)), View.canon_unit_zero zero_offsets]
  simp only [View.readAt_eq_ld, View.ld_unit_zero (S := S2048x768) zero_offsets, View.ld_unit_zero (S := S768x768) zero_offsets,
    View.ld_unit_zero (S := S1x768) zero_offsets]
  rfl

/-! ## The windows' blocks and the proof data -/

/-- Window `w`'s block at grid point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- What the body leaves in the output window's buffer at point `t`: the projection of that point's blocks. -/
def outAt (c : Dev nD) (t : Fin cfg0.N) : FVec F S2048x768 .f32 :=
  projBlock (blockAt m c 0 t) (blockAt m c 1 t) (blockAt m c 2 t) (blockAt m c 3 t) (blockAt m c 4 t) (blockAt m c 5 t) (blockAt m c 6 t)

/-- The proof data of the region on core `c`: the eight arrays as the region finds them; after the body at point `t`
    each input buffer still at its block and the output buffer at `outAt`; the invariant is the buffers the body never
    touches; nothing owed, full shares. -/
def regionData (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => outAt m c t
  Φ _ := Pipeline.ΦA spec0 c
  q _ := fullShare
  owed _ := 0

theorem data_arrays (c : Dev nD) (w : Fin cfg0.W) : (regionData m 0 c).A w = entryAt m c (Pipeline.arrRef spec0 w) := by
  dsimp only [regionData]

theorem data_after0 (c : Dev nD) (t : Fin cfg0.N) : (regionData m 0 c).after 0 t = blockAt m c 0 t := by dsimp only [regionData]
theorem data_after1 (c : Dev nD) (t : Fin cfg0.N) : (regionData m 0 c).after 1 t = blockAt m c 1 t := by dsimp only [regionData]
theorem data_after2 (c : Dev nD) (t : Fin cfg0.N) : (regionData m 0 c).after 2 t = blockAt m c 2 t := by dsimp only [regionData]
theorem data_after3 (c : Dev nD) (t : Fin cfg0.N) : (regionData m 0 c).after 3 t = blockAt m c 3 t := by dsimp only [regionData]
theorem data_after4 (c : Dev nD) (t : Fin cfg0.N) : (regionData m 0 c).after 4 t = blockAt m c 4 t := by dsimp only [regionData]
theorem data_after5 (c : Dev nD) (t : Fin cfg0.N) : (regionData m 0 c).after 5 t = blockAt m c 5 t := by dsimp only [regionData]
theorem data_after6 (c : Dev nD) (t : Fin cfg0.N) : (regionData m 0 c).after 6 t = blockAt m c 6 t := by dsimp only [regionData]
theorem data_after7 (c : Dev nD) (t : Fin cfg0.N) : (regionData m 0 c).after 7 t = outAt m c t := by dsimp only [regionData]

/-- An input window whose body leaves its block in place holds that block at every point, whether the pipeline fetched
    it there or not (when it did not, the block index has not moved). One statement per input window. -/
local macro "input_holds_block " w:num " with " hafter:ident : term => `(
  fun (c : Dev nD) (t : Fin cfg0.N) d =>
    (((regionData m 0 c).before_in_eq_fetched $w rfl (fun _ => rfl) (fun _ _ _ => rfl)
      (fun t => by rw [$hafter:ident]; unfold Dat.blockOf blockAt; rw [data_arrays]; try rfl) t d).trans
      (by unfold Dat.fetched Dat.blockOf blockAt; rw [data_arrays]; try rfl)))

theorem found0 : ∀ (c : Dev nD) (t : Fin cfg0.N) d, (regionData m 0 c).before 0 t d = blockAt m c 0 t := input_holds_block 0 with data_after0
theorem found1 : ∀ (c : Dev nD) (t : Fin cfg0.N) d, (regionData m 0 c).before 1 t d = blockAt m c 1 t := input_holds_block 1 with data_after1
theorem found2 : ∀ (c : Dev nD) (t : Fin cfg0.N) d, (regionData m 0 c).before 2 t d = blockAt m c 2 t := input_holds_block 2 with data_after2
theorem found3 : ∀ (c : Dev nD) (t : Fin cfg0.N) d, (regionData m 0 c).before 3 t d = blockAt m c 3 t := input_holds_block 3 with data_after3
theorem found4 : ∀ (c : Dev nD) (t : Fin cfg0.N) d, (regionData m 0 c).before 4 t d = blockAt m c 4 t := input_holds_block 4 with data_after4
theorem found5 : ∀ (c : Dev nD) (t : Fin cfg0.N) d, (regionData m 0 c).before 5 t d = blockAt m c 5 t := input_holds_block 5 with data_after5
theorem found6 : ∀ (c : Dev nD) (t : Fin cfg0.N) d, (regionData m 0 c).before 6 t d = blockAt m c 6 t := input_holds_block 6 with data_after6

/-! ## The body at a grid point -/

/-- What the pipeline hands the body at point `t`, the eight windows one by one, -/
def handed (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d))
    ∗ (∃ d, owns (c : Thread nD τ) (st0_6 t) fullShare ((regionData m 0 c).before 6 t d))
    ∗ (∃ d, owns (c : Thread nD τ) (st0_7 t) fullShare ((regionData m 0 c).before 7 t d)))

/-- and what it gives back. -/
def givenBack (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t)
    ∗ owns (c : Thread nD τ) (st0_6 t) fullShare ((regionData m 0 c).after 6 t)
    ∗ owns (c : Thread nD τ) (st0_7 t) fullShare ((regionData m 0 c).after 7 t))

/-- At any point the input buffers hold their blocks, so the body runs as `body_runs` says; the invariant and the
    core's dues pass through untouched. -/
theorem point_runs (c : Dev nD) (t : Fin cfg0.N) :
    handed m c t ⊢ wp frame (wpE (defs₀ (F := F)) Variants.none c none) Set.univ (bodyAt0 t) (fun _ => givenBack m c t) := by
  unfold handed givenBack bodyAt0
  simp only [found0, found1, found2, found3, found4, found5, found6]
  rw [show (regionData m 0 c).Φ t.succ = (regionData m 0 c).Φ t.castSucc from rfl,
    show (regionData m 0 c).owesAt () t.succ = (regionData m 0 c).owesAt () t.castSucc from rfl,
    data_after0, data_after1, data_after2, data_after3, data_after4, data_after5, data_after6, data_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region, at every point. -/
theorem body_obligation (c : Dev nD) : BodyObligation (regionData (F := F) m 0 c) (defs₀ (F := F)) Variants.none () Set.univ := fun t => by
  rw [bigSep_W0, bigSep_W0]
  exact point_runs m c t

/-! ## The run -/

set_option backward.isDefEq.respectTransparency.types false in
/-- From any memory with zero counters every weakly fair execution of `@main` ends; the eight arrays end at what the
    36 write-backs leave, every other unscoped buffer at what the later host lines leave. -/
theorem run_main : θ_run defs (onTc (τ := τ) (main (F := F))) (s₀ m ρ)
    (Pipeline.FramePost cfgs (regionData m) 0 (Pipeline.afterTail₀ cfgs (regionData m) 0 (entryVal m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entryVal m) (opss := [hostOps1]) (hsub := later_within) (hfresh := later_allocs_nothing)
    (hkeep := later_keeps_arrays) (hmain := main_around m Variants.none) (hA := data_arrays m) (hΦ := fun _ _ => rfl)

/-- What the run's post says of an unscoped buffer `b` that is no array of the region and that no host line writes:
    it ends as launched. -/
theorem kept_of_run (b : Ref sig .tc) (hs : b.isScoped = false) (hne : ∀ w, Pipeline.arrRef spec0 w ≠ b)
    (h0 : (hostOps0 : List (HloOp τ sig (Elt F))).Forall fun op => Proc.devRef .tc b ∉ op.writes)
    (h1 : (hostOps1 : List (HloOp τ sig (Elt F))).Forall fun op => Proc.devRef .tc b ∉ op.writes)
    (r : PUnit × MemSt nD τ sig (Elt F))
    (h : Pipeline.FramePost cfgs (regionData m) 0 (Pipeline.afterTail₀ cfgs (regionData m) 0 (entryVal m) [hostOps1]) r) (c : Dev nD) :
    r.2.mem ((c.tc : Thread nD τ).loc b) = m ((c.tc : Thread nD τ).loc b) :=
  ((h c).2 b (Pipeline.mem_restRefs_of b hs hne)).trans ((exit_untouched m (regionData m) c b hne h1).trans (entry_untouched m c b h0))

/-- THE FRAME: every weakly fair execution ends, nothing faults, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨kept_of_run m main_arg0 (by decide) (by decide) arg0_before arg0_later r h c,
     kept_of_run m main_arg1 (by decide) (by decide) arg1_before arg1_later r h c,
     kept_of_run m main_arg2 (by decide) (by decide) arg2_before arg2_later r h c,
     kept_of_run m main_arg3 (by decide) (by decide) arg3_before arg3_later r h c,
     kept_of_run m main_arg4 (by decide) (by decide) arg4_before arg4_later r h c,
     kept_of_run m main_arg5 (by decide) (by decide) arg5_before arg5_later r h c,
     kept_of_run m main_arg6 (by decide) (by decide) arg6_before arg6_later r h c,
     kept_of_run m main_arg7 (by decide) (by decide) arg7_before arg7_later r h c,
     kept_of_run m main_arg8 (by decide) (by decide) arg8_before arg8_later r h c⟩) (run_main m ρ)

end Cert.KernelIdeal.Around

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.BlockEntry.lean ====
/-
  Entry `(p, q)` of the value the kernel body stores.  The body multiplies three 2048 × 768 blocks by three 768 × 768
  blocks, each product into a zero accumulator, adds the three products left to right, and adds a 1 × 768 bias row
  broadcast over the 2048 rows.  On the extended reals, entry `(p, q)` of the result is therefore the three 768-term
  sums `∑ k, x (p, k) * w (k, q)` added left to right, plus the bias entry `(0, q)`.
-/
import proofs.«129182_j25692494364677_1_alg».proof.Proof.Gen.KernelIdeal.Skeleton
import proofs.«129182_j25692494364677_1_alg».proof.Proof.LibPlainMatmul
import Idealize.ShloMosaic.PureOps.Ideal.Laws
import Idealize.ShloMosaic.Lib.ValueIdx
import Idealize.ShloMosaic.Lib.Pipeline.Value

namespace Cert.KernelIdeal.BlockEntry
open Idealize.ShloMosaic Idealize.ShloMosaic.ValueIdx Cert.KernelIdeal Cert.KernelIdeal.Gen

/-- The kernel's dimension numbers (left contracted on its columns, right on its rows, no batch axis) are those of a
    plain 2048 × 768 by 768 × 768 product: the same six lists, and the well-formedness field is a proof. -/
theorem dims_eq_plain : dot_S2048x768_S768x768_S2048x768_1_0_0_1_n_n = DotDims.plain 2048 768 768 := rfl

/-- The bias row broadcast over the 2048 rows, read at `(p, q)`, is the row's entry `(0, q)`: the row's first axis has
    extent 1 (so its coordinate is 0) and its second axis is the result's second axis. -/
theorem bias_apply (b : Vec Ideal S1x768 .f32) (p : Fin 2048) (q : Fin 768) :
    broadcastTo S2048x768 b broadcasts_S1x768_S2048x768 (ix2 p q) = b (ix2 (0 : Fin 1) q) := by
  refine broadcastTo_apply b _ (ix2 p q) (ix2 (0 : Fin 1) q) fun a => ?_
  match a with
  | ⟨0, _⟩ => rfl
  | ⟨1, _⟩ => rfl

/-- One of the three products: a shape cast of a shape to itself is the identity, and the product into the zero
    accumulator at `(p, q)` is the 768-term sum of row `p` of the left block against column `q` of the right. -/
theorem prod_apply (x : FVec Ideal S2048x768 .bf16) (w : FVec Ideal S768x768 .bf16) (p : Fin 2048) (q : Fin 768) :
    matmul (F := Ideal) dot_S2048x768_S768x768_S2048x768_1_0_0_1_n_n none
        (shapeCast S2048x768 x shapeCasts_S2048x768_S2048x768) (shapeCast S768x768 w shapeCasts_S768x768_S768x768)
        (constant (F := Ideal) S2048x768 .f32 0x00000000#32) (ix2 p q)
      = ∑ k : Fin 768, x (ix2 p k) * w (ix2 k q) := by
  rw [shapeCast_self, shapeCast_self, dims_eq_plain]
  exact Cert.PlainMatmul.matmul_plain_zero_apply x w none p q

/-- Entry `(p, q)` of the stored value: the three 768-term sums added left to right, plus the bias entry `(0, q)`. -/
theorem pay_apply (xh : Vec Ideal S2048x768 .bf16) (w1 : Vec Ideal S768x768 .bf16) (ea : Vec Ideal S2048x768 .bf16) (w2 : Vec Ideal S768x768 .bf16)
    (xt : Vec Ideal S2048x768 .bf16) (w3 : Vec Ideal S768x768 .bf16) (b : Vec Ideal S1x768 .f32) (p : Fin 2048) (q : Fin 768) :
    k0_pay1 (F := Ideal) xh w1 ea w2 xt w3 b (ix2 p q)
      = ((∑ k : Fin 768, xh (ix2 p k) * w1 (ix2 k q) + ∑ k : Fin 768, ea (ix2 p k) * w2 (ix2 k q)) + ∑ k : Fin 768, xt (ix2 p k) * w3 (ix2 k q))
        + b (ix2 (0 : Fin 1) q) := by
  unfold k0_pay1
  show (matmul (F := Ideal) _ none _ _ _ (ix2 p q) + matmul (F := Ideal) _ none _ _ _ (ix2 p q) + matmul (F := Ideal) _ none _ _ _ (ix2 p q))
      + broadcastTo S2048x768 (shapeCast S1x768 b shapeCasts_S1x768_S1x768) broadcasts_S1x768_S2048x768 (ix2 p q) = _
  rw [prod_apply xh w1 p q, prod_apply ea w2 p q, prod_apply xt w3 p q, shapeCast_self, bias_apply]

end Cert.KernelIdeal.BlockEntry
-- ==== Proof.KernelIdealFinal.lean ====
/-
  The result array after the projection region, on the extended reals.

  The region's grid has 36 points.  At point `t` the result window holds rows `2048·t … 2048·t + 2047` of the
  73728 × 768 result, the three operand windows hold the same rows of their 73728 × 768 arrays, and the three weight
  windows and the bias window hold their whole 768 × 768 and 1 × 768 arrays.  What the body stores at `t` is, entry
  `(p, q)`, the three 768-term sums of row `p` of an operand block against column `q` of a weight, added left to
  right, plus the bias entry `(0, q)`; that is entry `(2048·t + p, q)` of ONE function of the whole arrays,
  `projAll`.  The 36 row blocks cover the result array, so after the 36 write-backs the array is `projAll` of the
  arrays as the region finds them.
-/
import proofs.«129182_j25692494364677_1_alg».proof.Proof.KernelIdealRegion
import proofs.«129182_j25692494364677_1_alg».proof.Proof.BlockEntry
import Idealize.ShloMosaic.Lib.Pipeline.Value
import Idealize.ShloMosaic.Lib.ValueIdx
import Idealize.ShloMosaic.PureOps.Ideal.Laws

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-- the projection of whole arrays, entry (r, j): head·W₁ + rel·W₂ + tail·W₃ + bias, the three sums added left to right -/
def projAll (XH EA XT : Vec Ideal S73728x768 .bf16) (W1 W2 W3 : Vec Ideal S768x768 .bf16) (B : Vec Ideal S1x768 .f32) :
    Vec Ideal S73728x768 .f32 :=
  fun i => ((∑ k : Fin 768, XH (ix2 (⟨(i 0).val, (i 0).isLt⟩ : Fin 73728) k) * W1 (ix2 k (⟨(i 1).val, (i 1).isLt⟩ : Fin 768))
            + ∑ k : Fin 768, EA (ix2 (⟨(i 0).val, (i 0).isLt⟩ : Fin 73728) k) * W2 (ix2 k (⟨(i 1).val, (i 1).isLt⟩ : Fin 768)))
            + ∑ k : Fin 768, XT (ix2 (⟨(i 0).val, (i 0).isLt⟩ : Fin 73728) k) * W3 (ix2 k (⟨(i 1).val, (i 1).isLt⟩ : Fin 768)))
          + B (ix2 (0 : Fin 1) (⟨(i 1).val, (i 1).isLt⟩ : Fin 768))

/-- at the index (r, j) the coordinates read back are r and j themselves -/
theorem projAll_apply (XH EA XT : Vec Ideal S73728x768 .bf16) (W1 W2 W3 : Vec Ideal S768x768 .bf16) (B : Vec Ideal S1x768 .f32)
    (r : Fin 73728) (j : Fin 768) :
    projAll XH EA XT W1 W2 W3 B (ix2 r j)
      = ((∑ k : Fin 768, XH (ix2 r k) * W1 (ix2 k j) + ∑ k : Fin 768, EA (ix2 r k) * W2 (ix2 k j))
          + ∑ k : Fin 768, XT (ix2 r k) * W3 (ix2 k j)) + B (ix2 (0 : Fin 1) j) := rfl

/-- The printed index maps, decided once over the 36 grid points: the result window and the three operand windows sit
    at block (t, 0); the three weight windows and the bias window at block (0, 0). -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

variable (m : (ℓ : Loc nD τ sig) → Buf (Elt Ideal) ℓ)

/-- a grid point is below 36 -/
theorem point_lt (t : Fin cfg0.N) : t.val < 36 := lt_of_lt_of_eq t.isLt N_0

/-- row p of the block at point t is row 2048·t + p of the array -/
def rowOf (t : Fin cfg0.N) (p : Fin 2048) : Fin 73728 := ⟨t.val * 2048 + p.val, by have := point_lt t; omega⟩

/-! ## The blocks read at an entry -/

/-- entry (p, k) of the first operand's block at point t is entry (2048·t + p, k) of its array: the block index is (t, 0) -/
theorem block0_apply (c : Dev nD) (t : Fin cfg0.N) (p : Fin 2048) (k : Fin 768) :
    blockAt m c 0 t (ix2 p k) = entryAt m c main_v43 (ix2 (rowOf t p) k) := by
  obtain ⟨-, -, e0, e1, -⟩ := idx_facts t
  show entryAt m c main_v43 (((cfg0.win 0).blk t).view.emb (ix2 p k)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 768 + 1 * k.val = k.val; omega

/-- the same for the second operand -/
theorem block1_apply (c : Dev nD) (t : Fin cfg0.N) (p : Fin 2048) (k : Fin 768) :
    blockAt m c 1 t (ix2 p k) = entryAt m c main_v30 (ix2 (rowOf t p) k) := by
  obtain ⟨-, -, -, -, e0, e1, -⟩ := idx_facts t
  show entryAt m c main_v30 (((cfg0.win 1).blk t).view.emb (ix2 p k)) = _
  refine congrArg _ (funext fun a => Fin.ext ?_)
  match a with
  | ⟨0, _⟩ => show win0_1.index t (0 : Fin 2) * 2048 + 1 * p.val = t.val * 2048 + p.val; omega
  | ⟨1, _⟩ => show win0_1.index t (1 : Fin 2) * 768 + 1 * k.val = k.val; omega

/-- and for the third -/
theorem block2_apply (c : Dev nD) (t : Fin cfg0.N) (p : Fin 2048) (k : Fin 768) :
    blockAt m c 2 t (ix2 p k) = entryAt m c main_v50 (ix2 (rowOf t p) k) := by
  obtain ⟨-, -, -, -, -, -, e0, e1, -⟩ := idx_facts t
  show entryAt m c main_v50 (((cfg0.win 2).blk t).view.emb (ix2 p k)) = _
  refine congrArg _ (funext fun a => Fin.ext ?_)
  match a with
  | ⟨0, _⟩ => show win0_2.index t (0 : Fin 2) * 2048 + 1 * p.val = t.val * 2048 + p.val; omega
  | ⟨1, _⟩ => show win0_2.index t (1 : Fin 2) * 768 + 1 * k.val = k.val; omega

/-- a weight window's block is its whole array at every point: the block index is (0, 0) -/
theorem block3_apply (c : Dev nD) (t : Fin cfg0.N) (k : Fin 768) (q : Fin 768) :
    blockAt m c 3 t (ix2 k q) = entryAt m c main_v52 (ix2 k q) := by
  obtain ⟨-, -, -, -, -, -, -, -, e0, e1, -⟩ := idx_facts t
  show entryAt m c main_v52 (((cfg0.win 3).blk t).view.emb (ix2 k q)) = _
  refine congrArg _ (funext fun a => Fin.ext ?_)
  match a with
  | ⟨0, _⟩ => show win0_3.index t (0 : Fin 2) * 768 + 1 * k.val = k.val; omega
  | ⟨1, _⟩ => show win0_3.index t (1 : Fin 2) * 768 + 1 * q.val = q.val; omega

theorem block4_apply (c : Dev nD) (t : Fin cfg0.N) (k : Fin 768) (q : Fin 768) :
    blockAt m c 4 t (ix2 k q) = entryAt m c main_v54 (ix2 k q) := by
  obtain ⟨-, -, -, -, -, -, -, -, -, -, e0, e1, -⟩ := idx_facts t
  show entryAt m c main_v54 (((cfg0.win 4).blk t).view.emb (ix2 k q)) = _
  refine congrArg _ (funext fun a => Fin.ext ?_)
  match a with
  | ⟨0, _⟩ => show win0_4.index t (0 : Fin 2) * 768 + 1 * k.val = k.val; omega
  | ⟨1, _⟩ => show win0_4.index t (1 : Fin 2) * 768 + 1 * q.val = q.val; omega

theorem block5_apply (c : Dev nD) (t : Fin cfg0.N) (k : Fin 768) (q : Fin 768) :
    blockAt m c 5 t (ix2 k q) = entryAt m c main_v56 (ix2 k q) := by
  obtain ⟨-, -, -, -, -, -, -, -, -, -, -, -, e0, e1, -⟩ := idx_facts t
  show entryAt m c main_v56 (((cfg0.win 5).blk t).view.emb (ix2 k q)) = _
  refine congrArg _ (funext fun a => Fin.ext ?_)
  match a with
  | ⟨0, _⟩ => show win0_5.index t (0 : Fin 2) * 768 + 1 * k.val = k.val; omega
  | ⟨1, _⟩ => show win0_5.index t (1 : Fin 2) * 768 + 1 * q.val = q.val; omega

/-- the bias window's block is its whole row at every point -/
theorem block6_apply (c : Dev nD) (t : Fin cfg0.N) (q : Fin 768) :
    blockAt m c 6 t (ix2 (0 : Fin 1) q) = entryAt m c main_v57 (ix2 (0 : Fin 1) q) := by
  obtain ⟨-, -, -, -, -, -, -, -, -, -, -, -, -, -, e0, e1⟩ := idx_facts t
  show entryAt m c main_v57 (((cfg0.win 6).blk t).view.emb (ix2 (0 : Fin 1) q)) = _
  refine congrArg _ (funext fun a => Fin.ext ?_)
  match a with
  | ⟨0, _⟩ => show win0_6.index t (0 : Fin 2) * 1 + 1 * (0 : Fin 1).val = (0 : Fin 1).val; omega
  | ⟨1, _⟩ => show win0_6.index t (1 : Fin 2) * 768 + 1 * q.val = q.val; omega

/-- entry (p, q) of the result window's block at point t sits at (2048·t + p, q) in the result array -/
theorem out_index (t : Fin cfg0.N) (p : Fin 2048) (q : Fin 768) :
    ((cfg0.win 7).blk t).view.emb (ix2 p q) = ix2 (rowOf t p) q := by
  obtain ⟨e0, e1, -⟩ := idx_facts t
  refine funext fun a => Fin.ext ?_
  match a with
  | ⟨0, _⟩ => show win0_7.index t (0 : Fin 2) * 2048 + 1 * p.val = t.val * 2048 + p.val; omega
  | ⟨1, _⟩ => show win0_7.index t (1 : Fin 2) * 768 + 1 * q.val = q.val; omega

/-! ## What a point writes back -/

/-- WHAT POINT t WRITES BACK is block t of the projection of the whole arrays: entry (p, q) of the stored block is the
    three 768-term sums over row p of the operand blocks and column q of the weights plus the bias entry (0, q); row p of
    an operand block is row 2048·t + p of its array, the weights and the bias are whole, and entry (p, q) of block t of
    the projection is its entry (2048·t + p, q). -/
theorem written_eq (c : Dev nD) (t : Fin cfg0.N) :
    (regionData (F := Ideal) m 0 c).flushed 7 t = ((cfg0.win 7).blk t).view.read (Elt Ideal)
      (projAll (entryAt m c main_v43) (entryAt m c main_v30) (entryAt m c main_v50) (entryAt m c main_v52)
        (entryAt m c main_v54) (entryAt m c main_v56) (entryAt m c main_v57)) := by
  show (cfg0.win 7).cut (grid0.coords t) ((regionData (F := Ideal) m 0 c).after 7 t) = _
  rw [data_after7]
  funext y
  obtain ⟨p, q, rfl⟩ : ∃ (p : Fin 2048) (q : Fin 768), y = ix2 p q := ⟨y 0, y 1, eq_ix2 y⟩
  unfold outAt projBlock
  refine (Cert.KernelIdeal.BlockEntry.pay_apply (blockAt m c 0 t) (blockAt m c 3 t) (blockAt m c 1 t) (blockAt m c 4 t)
    (blockAt m c 2 t) (blockAt m c 5 t) (blockAt m c 6 t) p q).trans ?_
  show _ = projAll (entryAt m c main_v43) (entryAt m c main_v30) (entryAt m c main_v50) (entryAt m c main_v52)
        (entryAt m c main_v54) (entryAt m c main_v56) (entryAt m c main_v57) (((cfg0.win 7).blk t).view.emb (ix2 p q))
  rw [out_index, projAll_apply]
  simp only [block0_apply, block1_apply, block2_apply, block3_apply, block4_apply, block5_apply, block6_apply]

/-! ## The 36 blocks cover the result array -/

/-- An index of the result array is in point t's block iff each coordinate is in the block's range on its axis. -/
theorem mem_blk (t : Fin cfg0.N) (i : S73728x768.Idx) :
    i ∈ ((cfg0.win 7).blk t).view.set ↔ ∀ a : Fin 2, win0_7.index t a * S2048x768.size a ≤ (i a).val
      ∧ (i a).val < win0_7.index t a * S2048x768.size a + S2048x768.size a := by
  show i ∈ ((View.whole main_v58).slice (win0_7.rect t)).set ↔ _
  rw [View.set_slice_whole, Rect.mem_set_unit]
  exact Iff.rfl

/-- Every index (r, j) of the result array is in the block of the point r / 2048, which is below 36 since r < 73728 =
    36 · 2048, and every point writes its block back. -/
theorem cover (i : S73728x768.Idx) :
    ∃ t : Fin cfg0.N, (cfg0.win 7).flush t = true ∧ i ∈ ((cfg0.win 7).blk t).view.set := by
  have hi0 : (i 0).val < 73728 := (i 0).isLt
  have hi1 : (i 1).val < 768 := (i 1).isLt
  have hN : cfg0.N = 36 := N_0
  obtain ⟨t, ht⟩ : ∃ t : Fin cfg0.N, t.val = (i 0).val / 2048 := ⟨⟨(i 0).val / 2048, by rw [hN]; omega⟩, rfl⟩
  obtain ⟨e0, e1, -⟩ := idx_facts t
  refine ⟨t, flush0_7 t, ?_⟩
  rw [mem_blk]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 768 ≤ (i 1).val ∧ (i 1).val < win0_7.index t (1 : Fin 2) * 768 + 768
    omega

/-! ## The result array after the run -/

/-- After the 36 write-backs the result array is, entry by entry, the projection of the whole arrays as the region
    finds them: each point writes block t of that one function, and the blocks cover the array. -/
theorem final_array (c : Dev nD) :
    (regionData (F := Ideal) m 0 c).arrAt 7 cfg0.N
      = projAll (entryAt m c main_v43) (entryAt m c main_v30) (entryAt m c main_v50) (entryAt m c main_v52)
          (entryAt m c main_v54) (entryAt m c main_v56) (entryAt m c main_v57) :=
  (regionData (F := Ideal) m 0 c).arrAt_eq_of_cover 7 _ (fun t _ => written_eq m c t) cover

end Cert.KernelIdeal.Around

end
-- ==== Proof.KernelIdealWeights.lean ====
/-
  The three weight blocks and the bias row when the region is entered.

  Among the host operations that precede the region, three take the row blocks 0 … 767, 768 … 1535 and 1536 … 2303 of the
  2304 × 768 weight, three change those blocks' float format to bf16 (on the extended reals a change of format changes
  nothing), and one reshapes the 768-entry bias to one row.  No other operation writes those buffers, and none writes the
  weight or the bias.  So entry `(k, j)` of block `n` is the weight at `(768 n + k, j)`, and entry `(0, j)` of the
  bias row is entry `j` of the bias.
-/
import proofs.«129182_j25692494364677_1_alg».proof.Proof.KernelIdealAround
import Idealize.ShloMosaic.Lib.StableHlo.Run
import Idealize.ShloMosaic.Lib.Pipeline.Value
import Idealize.ShloMosaic.Lib.ValueIdx
import Idealize.ShloMosaic.PureOps.Ideal
import Idealize.ShloMosaic.Lib.ValueLayout

set_option maxRecDepth 16384

noncomputable section

namespace Cert.KernelIdeal.Around

open Idealize.ShloMosaic Idealize.ShloMosaic.TcCoe Idealize.ShloMosaic.StableHlo
open Idealize.SL.Sem
open Cert.KernelIdeal Cert.KernelIdeal.Gen
open Idealize.ShloMosaic.ValueIdx

variable (m : (ℓ : Loc nD τ sig) → Buf (Elt Ideal) ℓ)

/-! ## The weight blocks and the bias row when the region is entered -/

/-- A 768-row slice of the 2304 × 768 weight that starts at row `r`, read at `(k, j)`, is the weight at `(r + k, j)`:
    the row is shifted by the slice's offset, the column (offset 0) is kept. -/
theorem slice_rows_apply (W : S2304x768.Idx → EReal) (r : ℕ) (h : S2304x768.Slices ![r, 0] S768x768) (k j : Fin 768)
    (i : Fin 2304) (hi : i.val = r + k.val) :
    extractStridedSlice S768x768 ![r, 0] W h (ix2 k j) = W (ix2 i j) :=
  extractStridedSlice_apply _ W h (ix2 k j) (ix2 i j) fun a => match a with
    | ⟨0, _⟩ => hi
    | ⟨1, _⟩ => (Nat.zero_add _).symm

/-- The first weight block is rows 0 … 767 of the weight, its format changed to bf16 (no change on the extended reals). -/
theorem entry_v52_eq (c : Dev nD) : @Eq (S768x768.Idx → EReal) (entryAt m c main_v52)
    (truncf (F := Ideal) .bf16 (extractStridedSlice S768x768 ![0, 0] (m ((c : Thread nD τ).loc main_arg7)) slices_S2304x768_S768x768_0_0)
      bitsLt_bf16_f32) := by
  dsimp only [entryAt, entryVal]
  simp only [hostOps0, List.flatten_cons, List.flatten_nil, List.append_nil]
  after_results_simp

/-- The second is rows 768 … 1535. -/
theorem entry_v54_eq (c : Dev nD) : @Eq (S768x768.Idx → EReal) (entryAt m c main_v54)
    (truncf (F := Ideal) .bf16 (extractStridedSlice S768x768 ![768, 0] (m ((c : Thread nD τ).loc main_arg7)) slices_S2304x768_S768x768_768_0)
      bitsLt_bf16_f32) := by
  dsimp only [entryAt, entryVal]
  simp only [hostOps0, List.flatten_cons, List.flatten_nil, List.append_nil]
  after_results_simp

/-- The third is rows 1536 … 2303. -/
theorem entry_v56_eq (c : Dev nD) : @Eq (S768x768.Idx → EReal) (entryAt m c main_v56)
    (truncf (F := Ideal) .bf16 (extractStridedSlice S768x768 ![1536, 0] (m ((c : Thread nD τ).loc main_arg7)) slices_S2304x768_S768x768_1536_0)
      bitsLt_bf16_f32) := by
  dsimp only [entryAt, entryVal]
  simp only [hostOps0, List.flatten_cons, List.flatten_nil, List.append_nil]
  after_results_simp

/-- The bias row is the 768-entry bias reshaped to one row. -/
theorem entry_v57_eq (c : Dev nD) : @Eq (S1x768.Idx → EReal) (entryAt m c main_v57)
    (shapeCast S1x768 (m ((c : Thread nD τ).loc main_arg8)) shapeCasts_S768_S1x768) := by
  dsimp only [entryAt, entryVal]
  simp only [hostOps0, List.flatten_cons, List.flatten_nil, List.append_nil]
  after_results_simp
  rfl

/-- Entry `(k, j)` of the first weight block is the weight at `(k, j)`. -/
theorem entry_v52 (c : Dev nD) (k j : Fin 768) : entryAt m c main_v52 (ix2 k j) = m ((c : Thread nD τ).loc main_arg7) (ix2 (⟨k.val, by omega⟩ : Fin 2304) j) :=
  (congrFun (entry_v52_eq m c) (ix2 k j)).trans (slice_rows_apply _ 0 slices_S2304x768_S768x768_0_0 k j _ (Nat.zero_add _).symm)

/-- Entry `(k, j)` of the second is the weight at `(768 + k, j)`. -/
theorem entry_v54 (c : Dev nD) (k j : Fin 768) : entryAt m c main_v54 (ix2 k j) = m ((c : Thread nD τ).loc main_arg7) (ix2 (⟨768 + k.val, by omega⟩ : Fin 2304) j) :=
  (congrFun (entry_v54_eq m c) (ix2 k j)).trans (slice_rows_apply _ 768 slices_S2304x768_S768x768_768_0 k j _ rfl)

/-- Entry `(k, j)` of the third is the weight at `(1536 + k, j)`. -/
theorem entry_v56 (c : Dev nD) (k j : Fin 768) : entryAt m c main_v56 (ix2 k j) = m ((c : Thread nD τ).loc main_arg7) (ix2 (⟨1536 + k.val, by omega⟩ : Fin 2304) j) :=
  (congrFun (entry_v56_eq m c) (ix2 k j)).trans (slice_rows_apply _ 1536 slices_S2304x768_S768x768_1536_0 k j _ rfl)

/-- Entry `(0, j)` of the bias row is entry `j` of the bias: the reshape keeps the row-major position. -/
theorem entry_v57 (c : Dev nD) (j : Fin 768) : entryAt m c main_v57 (ix2 (0 : Fin 1) j) = m ((c : Thread nD τ).loc main_arg8) (ix1 j) :=
  (congrFun (entry_v57_eq m c) (ix2 (0 : Fin 1) j)).trans (shapeCast_a_1a_apply _ shapeCasts_S768_S1x768 0 j)

end Cert.KernelIdeal.Around

end
-- ==== Proof.KernelIdealEntry.lean ====
/-
  The gathered operands at the region's entry are the reference's values.

  The sixty-seven host operations that precede the region are, buffer for buffer, the operations the reference
  applies to the same arguments: the clamped embedding gather, the edge index with the self loops appended, its two
  rows, and the two row gathers by them.  The one difference is that the embedding rows are converted to bf16 before
  the row gathers; on the extended reals a change of float format is the identity, so the converted rows are the
  rows, and each entry buffer equals the reference's value of the same operation.
-/
import proofs.«129182_j25692494364677_1_alg».proof.Proof.KernelIdealAround
import proofs.«129182_j25692494364677_1_alg».proof.Proof.RefRead
import Idealize.ShloMosaic.Lib.StableHlo.Run
import Idealize.ShloMosaic.PureOps.Ideal

set_option maxRecDepth 16384

noncomputable section

namespace Cert.KernelIdeal.Around

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ)

/-- The head indices: row 0 of the edge index with the self loops appended, as a vector. Both sides are the same
    slice and reshape of the same concatenation of the edge-index argument with two rows of iota. -/
theorem entry_v34 (c : Dev nD) :
    entryAt m c main_v34 = Cert.ReferenceIdeal.ReadP.val_main_v32 (F := Ideal) (m ((c : Thread nD τ).loc main_arg1)) := by
  dsimp only [entryAt, entryVal]
  simp only [hostOps0, List.flatten_cons, List.flatten_nil, List.append_nil]
  after_results_simp
  rfl

/-- The tail indices: row 1 of the same concatenation. -/
theorem entry_v36 (c : Dev nD) :
    entryAt m c main_v36 = Cert.ReferenceIdeal.ReadP.val_main_v34 (F := Ideal) (m ((c : Thread nD τ).loc main_arg1)) := by
  dsimp only [entryAt, entryVal]
  simp only [hostOps0, List.flatten_cons, List.flatten_nil, List.append_nil]
  after_results_simp
  rfl

/-- The head rows: the embedding rows of the clamped concept ids, gathered at the wrapped head indices. The kernel
    converts the embedding rows to bf16 first; on the extended reals that conversion is the identity, so the operand of
    the row gather is the reference's and the index operand is the same term of the edge-index argument. -/
theorem entry_v43 (c : Dev nD) :
    entryAt m c main_v43 = Cert.ReferenceIdeal.ReadP.val_main_v41 (F := Ideal) (m ((c : Thread nD τ).loc main_arg0)) (m ((c : Thread nD τ).loc main_arg1)) (m ((c : Thread nD τ).loc main_arg4)) := by
  dsimp only [entryAt, entryVal]
  simp only [hostOps0, List.flatten_cons, List.flatten_nil, List.append_nil]
  after_results_simp
  rfl

/-- The tail rows: the same converted embedding rows gathered at the wrapped tail indices. -/
theorem entry_v50 (c : Dev nD) :
    entryAt m c main_v50 = Cert.ReferenceIdeal.ReadP.val_main_v48 (F := Ideal) (m ((c : Thread nD τ).loc main_arg0)) (m ((c : Thread nD τ).loc main_arg1)) (m ((c : Thread nD τ).loc main_arg4)) := by
  dsimp only [entryAt, entryVal]
  simp only [hostOps0, List.flatten_cons, List.flatten_nil, List.append_nil]
  after_results_simp
  rfl

end Cert.KernelIdeal.Around

end
-- ==== Proof.KernelIdealEdge.lean ====
/-
  The edge features and the relation ids when the region is entered.

  Before the region the program builds the edge features (the relation rows gathered by the relation column, scaled by the
  weight column, with the self-loop row broadcast below them) and the relation ids (the relation column converted to
  integers, followed by 8192 copies of 38) by the same host operations, in the same order, as the reference does.  The
  program then changes the features' float format to bf16, which on the extended reals changes nothing.  So both buffers
  hold, at the region's entry, the reference's values of the launch contents of the arguments they are built from.
-/
import proofs.«129182_j25692494364677_1_alg».proof.Proof.KernelIdealAround
import proofs.«129182_j25692494364677_1_alg».proof.Proof.RefRead
import Idealize.ShloMosaic.Lib.StableHlo.Run
import Idealize.ShloMosaic.PureOps.Ideal

set_option maxRecDepth 16384

noncomputable section

namespace Cert.KernelIdeal.Around

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ)

/-! ## The edge features and the relation ids when the region is entered -/

/-- The edge features: the host operations that build them before the region are the reference's own, operation for
    operation (the relation rows gathered and scaled by the weight column, the self-loop row broadcast below them), and
    the change of float format that follows changes nothing on the extended reals. -/
theorem entry_v30 (c : Dev nD) : entryAt m c main_v30 = Cert.ReferenceIdeal.ReadP.val_main_v28 (F := Ideal) (m ((c : Thread nD τ).loc main_arg2)) (m ((c : Thread nD τ).loc main_arg5)) (m ((c : Thread nD τ).loc main_arg6)) := by
  dsimp only [entryAt, entryVal]
  simp only [hostOps0, List.flatten_cons, List.flatten_nil, List.append_nil]
  after_results_simp
  rfl

/-- The relation ids: the relation column converted to integers, then 8192 copies of 38, again by the reference's own
    operations. -/
theorem entry_v32 (c : Dev nD) : entryAt m c main_v32 = Cert.ReferenceIdeal.ReadP.val_main_v30 (F := Ideal) (m ((c : Thread nD τ).loc main_arg2)) := by
  dsimp only [entryAt, entryVal]
  simp only [hostOps0, List.flatten_cons, List.flatten_nil, List.append_nil]
  after_results_simp
  rfl

end Cert.KernelIdeal.Around

end
-- ==== Proof.KernelIdealExit.lean ====
/-
  The triple ids and the membership mask, after the later lines, are the reference's values.

  After the region `@main` runs thirty-seven more host operations.  From the head and the tail index vectors and the
  relation ids (all three computed before the region) and from two arguments, the concept ids and the sentences'
  concept ids, they build the triple ids — the concept ids gathered at the wrapped head indices, the relation ids, the
  concept ids gathered at the wrapped tail indices, three columns side by side — and the membership mask — for a
  sentence and an edge, whether some concept id of the sentence is the edge's head concept id, or is its tail concept
  id.  None of the buffers these lines read is one of the region's eight arrays, so whatever the region leaves in its
  arrays, the lines read every buffer as it was when the region was entered: there the two index vectors and the
  relation ids hold the reference's values, and an argument holds its launch contents.  The reference builds both
  results by the same operations in the same order, so each result is the reference's value of the launch contents.
-/
import proofs.«129182_j25692494364677_1_alg».proof.Proof.KernelIdealAround
import proofs.«129182_j25692494364677_1_alg».proof.Proof.KernelIdealEntry
import proofs.«129182_j25692494364677_1_alg».proof.Proof.KernelIdealEdge
import proofs.«129182_j25692494364677_1_alg».proof.Proof.LibNary3
import proofs.«129182_j25692494364677_1_alg».proof.Proof.RefRead
import Idealize.ShloMosaic.Lib.StableHlo.Run
import Idealize.ShloMosaic.Lib.Pipeline.FrameSuffix

set_option maxRecDepth 16384

noncomputable section

namespace Cert.KernelIdeal.Around

open Idealize.ShloMosaic Idealize.ShloMosaic.TcCoe Idealize.ShloMosaic.StableHlo
open Idealize.SL.Sem
open Idealize.ShloMosaic.Pipeline (Dat)
open Cert.KernelIdeal Cert.KernelIdeal.Gen

variable (m : (ℓ : Loc nD τ sig) → Buf (Elt Ideal) ℓ)

/-- The buffers after a line of operations, one operation at a time from the last: an operation's result buffer holds
    its function's value of its operands' contents, and every other buffer holds what it held before the operation. -/
local macro "results_pass" : tactic => `(tactic| simp (disch := decide) only [after_cons, after_nil,
      nullary_result', unary_result', binary_result', ternary_result', reshape_result',
      nullary_result_ne', unary_result_ne', binary_result_ne', ternary_result_ne', reshape_result_ne',
      nary_result_ne'])

set_option maxHeartbeats 4000000 in
/-- The membership mask.  The later lines compare the sentences' concept ids with the concept ids gathered at the
    wrapped head indices, reduce by `or` over a sentence's positions, do the same with the tail indices, and take the
    `or` of the two.  The lines read the head and tail index vectors and two arguments, none of them an array of the
    region, each therefore as at the region's entry: the index vectors are the reference's, the arguments are as
    launched.  The reference's mask is the same operations applied to the same four values. -/
theorem exit_v89 (dats : (p : Fin _) → (c : Dev nD) → Dat τ (Elt Ideal) Unit ℕ (UR sig nD τ) ℕ (cfgs p) c) (c : Dev nD) :
    Pipeline.afterTail₀ cfgs dats 0 (entryVal m) [hostOps1] c main_v89
      = Cert.ReferenceIdeal.ReadP.val_main_v84 (F := Ideal) (m ((c : Thread nD τ).loc main_arg0)) (m ((c : Thread nD τ).loc main_arg1)) (m ((c : Thread nD τ).loc main_arg3)) := by
  have e34 : entryVal m c (Proc.devRef .tc main_v34) = Cert.ReferenceIdeal.ReadP.val_main_v32 (F := Ideal) (m ((c : Thread nD τ).loc main_arg1)) := entry_v34 m c
  have e36 : entryVal m c (Proc.devRef .tc main_v36) = Cert.ReferenceIdeal.ReadP.val_main_v34 (F := Ideal) (m ((c : Thread nD τ).loc main_arg1)) := entry_v36 m c
  have e0 : entryVal m c (Proc.devRef .tc main_arg0) = m ((c : Thread nD τ).loc main_arg0) := entry_untouched m c main_arg0 arg0_before
  have e3 : entryVal m c (Proc.devRef .tc main_arg3) = m ((c : Thread nD τ).loc main_arg3) := entry_untouched m c main_arg3 arg3_before
  unfold Pipeline.afterTail₀
  simp only [hostOps1, List.flatten_cons, List.flatten_nil, List.append_nil]
  results_pass
  rw [Pipeline.withArrays_of_ne _ c (entryVal m c) _ main_v34 (by decide : ∀ w, Pipeline.arrRef spec0 w ≠ main_v34),
    Pipeline.withArrays_of_ne _ c (entryVal m c) _ main_v36 (by decide : ∀ w, Pipeline.arrRef spec0 w ≠ main_v36),
    Pipeline.withArrays_of_ne _ c (entryVal m c) _ main_arg0 (by decide : ∀ w, Pipeline.arrRef spec0 w ≠ main_arg0),
    Pipeline.withArrays_of_ne _ c (entryVal m c) _ main_arg3 (by decide : ∀ w, Pipeline.arrRef spec0 w ≠ main_arg3),
    e34, e36, e0, e3]
  rfl

set_option maxHeartbeats 4000000 in
/-- The triple ids.  The later lines join three columns: the concept ids gathered at the wrapped head indices, the
    relation ids, the concept ids gathered at the wrapped tail indices.  The joining operation's value is the
    concatenation of the three columns' contents, and the reference's triple ids are the concatenation of its own three
    columns, so it is enough that the columns agree one by one.  Each column is read back through the lines before the
    joining one down to the head indices, the relation ids or the tail indices and the concept-id argument, none of them
    an array of the region, each as at the region's entry; the reference's column is the same operations applied to the
    same values. -/
theorem exit_v76 (dats : (p : Fin _) → (c : Dev nD) → Dat τ (Elt Ideal) Unit ℕ (UR sig nD τ) ℕ (cfgs p) c) (c : Dev nD) :
    Pipeline.afterTail₀ cfgs dats 0 (entryVal m) [hostOps1] c main_v76
      = Cert.ReferenceIdeal.ReadP.val_main_v71 (F := Ideal) (m ((c : Thread nD τ).loc main_arg0)) (m ((c : Thread nD τ).loc main_arg1)) (m ((c : Thread nD τ).loc main_arg2)) := by
  have e34 : entryVal m c (Proc.devRef .tc main_v34) = Cert.ReferenceIdeal.ReadP.val_main_v32 (F := Ideal) (m ((c : Thread nD τ).loc main_arg1)) := entry_v34 m c
  have e36 : entryVal m c (Proc.devRef .tc main_v36) = Cert.ReferenceIdeal.ReadP.val_main_v34 (F := Ideal) (m ((c : Thread nD τ).loc main_arg1)) := entry_v36 m c
  have e32 : entryVal m c (Proc.devRef .tc main_v32) = Cert.ReferenceIdeal.ReadP.val_main_v30 (F := Ideal) (m ((c : Thread nD τ).loc main_arg2)) := entry_v32 m c
  have e0 : entryVal m c (Proc.devRef .tc main_arg0) = m ((c : Thread nD τ).loc main_arg0) := entry_untouched m c main_arg0 arg0_before
  unfold Pipeline.afterTail₀
  simp only [hostOps1, List.flatten_cons, List.flatten_nil, List.append_nil]
  results_pass
  rw [Cert.Nary3.nary3_result_fun (x := main_v73) (a := main_v74) (b := main_v75) (y := main_v76) (Val := Elt Ideal)
    (fun p q r => concatenate S73728x3 1 [⟨S73728x1, p⟩, ⟨S73728x1, q⟩, ⟨S73728x1, r⟩] concatenates_S73728x1_S73728x1_S73728x1_S73728x3_d1)]
  refine Cert.Nary3.concat3_congr _ _ _ ?_ ?_ ?_
  · results_pass
    rw [Pipeline.withArrays_of_ne _ c (entryVal m c) _ main_v34 (by decide : ∀ w, Pipeline.arrRef spec0 w ≠ main_v34),
      Pipeline.withArrays_of_ne _ c (entryVal m c) _ main_arg0 (by decide : ∀ w, Pipeline.arrRef spec0 w ≠ main_arg0), e34, e0]
    rfl
  · results_pass
    rw [Pipeline.withArrays_of_ne _ c (entryVal m c) _ main_v32 (by decide : ∀ w, Pipeline.arrRef spec0 w ≠ main_v32), e32]
    rfl
  · results_pass
    rw [Pipeline.withArrays_of_ne _ c (entryVal m c) _ main_v36 (by decide : ∀ w, Pipeline.arrRef spec0 w ≠ main_v36),
      Pipeline.withArrays_of_ne _ c (entryVal m c) _ main_arg0 (by decide : ∀ w, Pipeline.arrRef spec0 w ≠ main_arg0), e36, e0]
    rfl

end Cert.KernelIdeal.Around

end
-- ==== Proof.JoinSum.lean ====
/-
  Three 73728 × 768 matrices joined side by side and contracted with a 2304 × 768 matrix.  Column k of the joined
  matrix lies in the first, second or third part according to k < 768, 768 ≤ k < 1536 or 1536 ≤ k, so the 2304-term
  sum over the joined columns is the sum of three 768-term sums, one per part, each against the matching 768 rows of
  the other factor.  The extended reals are an additive commutative monoid, so regrouping a finite sum needs no
  finiteness.  Nothing here names a program.
-/
import Idealize.ShloMosaic.PureOps.Ideal.Laws
import Idealize.ShloMosaic.Lib.ValueIdx
import Idealize.ShloMosaic.Lib.Pipeline.Value
namespace Cert.JoinSum
open Idealize.ShloMosaic Idealize.ShloMosaic.ValueIdx
open scoped BigOperators

abbrev Part : Shape := ⟨2, ![73728, 768]⟩
abbrev Joined : Shape := ⟨2, ![73728, 2304]⟩
abbrev Wt : Shape := ⟨2, ![2304, 768]⟩

/-- the joined matrix at (r, k) for k in the first column block [0, 768): no part comes before it, so it is the
    first part at (r, k) -/
theorem join3_left (hc : Shape.Concatenates [Part, Part, Part] Joined 1) (xh ea xt : Part.Idx → EReal)
    (r : Fin 73728) (k : Fin 768) :
    concatenate Joined 1 [⟨Part, xh⟩, ⟨Part, ea⟩, ⟨Part, xt⟩] hc (ix2 r (⟨k.val, by omega⟩ : Fin 2304))
      = xh (ix2 r k) := by
  refine concatenate_apply_piece (α := EReal) (t := Joined) 1 [⟨Part, xh⟩, ⟨Part, ea⟩, ⟨Part, xt⟩] hc _ 0 (by simp) Part xh rfl rfl 0 (by simp)
    (ix2 r k) ?_ ?_
  · intro b hb
    match b with
    | ⟨0, _⟩ => rfl
    | ⟨1, _⟩ => exact absurd rfl hb
  · simp

/-- the joined matrix at (r, 768 + k): one part of 768 columns comes before, so it is the second part at (r, k) -/
theorem join3_mid (hc : Shape.Concatenates [Part, Part, Part] Joined 1) (xh ea xt : Part.Idx → EReal)
    (r : Fin 73728) (k : Fin 768) :
    concatenate Joined 1 [⟨Part, xh⟩, ⟨Part, ea⟩, ⟨Part, xt⟩] hc (ix2 r (⟨768 + k.val, by omega⟩ : Fin 2304))
      = ea (ix2 r k) := by
  refine concatenate_apply_piece (α := EReal) (t := Joined) 1 [⟨Part, xh⟩, ⟨Part, ea⟩, ⟨Part, xt⟩] hc _ 1 (by simp) Part ea rfl rfl 768 (by simp)
    (ix2 r k) ?_ ?_
  · intro b hb
    match b with
    | ⟨0, _⟩ => rfl
    | ⟨1, _⟩ => exact absurd rfl hb
  · simp

/-- the joined matrix at (r, 1536 + k): two parts of 768 columns each come before, so it is the third part at (r, k) -/
theorem join3_right (hc : Shape.Concatenates [Part, Part, Part] Joined 1) (xh ea xt : Part.Idx → EReal)
    (r : Fin 73728) (k : Fin 768) :
    concatenate Joined 1 [⟨Part, xh⟩, ⟨Part, ea⟩, ⟨Part, xt⟩] hc (ix2 r (⟨1536 + k.val, by omega⟩ : Fin 2304))
      = xt (ix2 r k) := by
  refine concatenate_apply_piece (α := EReal) (t := Joined) 1 [⟨Part, xh⟩, ⟨Part, ea⟩, ⟨Part, xt⟩] hc _ 2 (by simp) Part xt rfl rfl 1536 (by simp)
    (ix2 r k) ?_ ?_
  · intro b hb
    match b with
    | ⟨0, _⟩ => rfl
    | ⟨1, _⟩ => exact absurd rfl hb
  · simp

/-- a sum over Fin 2304 is the sum of its three thirds: 2304 = (768 + 768) + 768, and a sum over Fin (a + b) is the
    sum over the first a indices plus the sum over the last b, applied twice. EReal is an additive commutative monoid,
    so no finiteness is needed. -/
theorem sum_thirds (f : Fin 2304 → EReal) :
    ∑ k : Fin 2304, f k
      = (∑ k : Fin 768, f ⟨k.val, by omega⟩ + ∑ k : Fin 768, f ⟨768 + k.val, by omega⟩)
        + ∑ k : Fin 768, f ⟨1536 + k.val, by omega⟩ := by
  have h1 := Fin.sum_univ_add (a := 768 + 768) (b := 768) (f : Fin (768 + 768 + 768) → EReal)
  have h2 := Fin.sum_univ_add (a := 768) (b := 768)
    (fun i : Fin (768 + 768) => f (Fin.castAdd 768 i : Fin (768 + 768 + 768)))
  rw [h2] at h1
  exact h1

/-- THE LAW: the 2304-term contraction of the joined matrix against the weight is the sum of the three 768-term
    contractions of the parts against the three row blocks of the weight: split the sum in thirds and read the joined
    matrix on each third. -/
theorem sum_join3 (hc : Shape.Concatenates [Part, Part, Part] Joined 1) (xh ea xt : Part.Idx → EReal)
    (w : Wt.Idx → EReal) (r : Fin 73728) (j : Fin 768) :
    ∑ k : Fin 2304, concatenate Joined 1 [⟨Part, xh⟩, ⟨Part, ea⟩, ⟨Part, xt⟩] hc (ix2 r k) * w (ix2 k j)
      = (∑ k : Fin 768, xh (ix2 r k) * w (ix2 (⟨k.val, by omega⟩ : Fin 2304) j)
          + ∑ k : Fin 768, ea (ix2 r k) * w (ix2 (⟨768 + k.val, by omega⟩ : Fin 2304) j))
        + ∑ k : Fin 768, xt (ix2 r k) * w (ix2 (⟨1536 + k.val, by omega⟩ : Fin 2304) j) := by
  rw [sum_thirds]
  simp only [join3_left, join3_mid, join3_right]

end Cert.JoinSum
-- ==== Proof.RefEntry.lean ====
/-
  The reference's projection at an entry.  The reference adds the bias, broadcast over the rows, to the product of
  [head | rel | tail] (three 73728 × 768 operands joined side by side) with the 2304 × 768 weight.  At entry (r, j) that
  is the 2304-term sum over the joined columns plus bias j, and the sum splits into the three 768-term sums over the
  weight's three row blocks.
-/
import proofs.«129182_j25692494364677_1_alg».proof.Proof.RefRead
import proofs.«129182_j25692494364677_1_alg».proof.Proof.JoinSum
import Idealize.ShloMosaic.Lib.ValueIdx
import Idealize.ShloMosaic.PureOps.Ideal
import Idealize.ShloMosaic.PureOps.Ideal.Laws

noncomputable section

namespace Cert.ReferenceIdeal.Entry

open Idealize.ShloMosaic Idealize.ShloMosaic.ValueIdx Cert.ReferenceIdeal Cert.ReferenceIdeal.Gen Cert.ReferenceIdeal.ReadP
open scoped BigOperators

/-- the contraction's left operand, for the result entry (r, j) and the contracted position k, is read at (r, k):
    the row is the result's row, the column is k -/
theorem lidx_eq (r : Fin 73728) (j : Fin 768) (k : Fin 2304) :
    lidx_main_v50 (ix2 r j) k = ix2 r k :=
  funext fun a => Fin.ext (by match a with | ⟨0, _⟩ => rfl | ⟨1, _⟩ => rfl)

/-- the contraction's right operand (the weight), for the result entry (r, j) and the contracted position k, is read
    at (k, j): the row is k, the column is the result's column -/
theorem ridx_eq (r : Fin 73728) (j : Fin 768) (k : Fin 2304) :
    ridx_main_v50 (ix2 r j) k = ix2 k j :=
  funext fun a => Fin.ext (by match a with | ⟨0, _⟩ => rfl | ⟨1, _⟩ => rfl)

/-- the bias, broadcast first to one row of 768 and then over the 73728 rows, is read for the result entry (r, j)
    at j: both broadcasts keep the column and forget the row -/
theorem bidx_eq (r : Fin 73728) (j : Fin 768) :
    idx_main_v51 (idx_main_v52 (ix2 r j)) = ix1 j :=
  funext fun a => Fin.ext (by match a with | ⟨0, _⟩ => rfl)

/-- THE ENTRY: the reference's first result at (r, j) is the contraction over the 2304 columns of the side-by-side
    join (head rows | edge features | tail rows) against the weight, plus the bias at j. The 2304-term contraction of
    a three-part join is the sum of the three 768-term contractions of the parts against the three row blocks
    [0, 768), [768, 1536), [1536, 2304) of the weight. -/
theorem result_apply (x0 : (⟨S8192, .i32⟩ : BufTy).Contents (Elt Ideal)) (x1 : (⟨S2x65536, .i32⟩ : BufTy).Contents (Elt Ideal)) (x2 : (⟨S65536x2, .f32⟩ : BufTy).Contents (Elt Ideal)) (x4 : (⟨S100000x768, .f32⟩ : BufTy).Contents (Elt Ideal)) (x5 : (⟨S38x768, .f32⟩ : BufTy).Contents (Elt Ideal)) (x6 : (⟨S768, .f32⟩ : BufTy).Contents (Elt Ideal)) (x7 : (⟨S2304x768, .f32⟩ : BufTy).Contents (Elt Ideal)) (x8 : (⟨S768, .f32⟩ : BufTy).Contents (Elt Ideal)) (r : Fin 73728) (j : Fin 768) :
    val_main_v53 (F := Ideal) x0 x1 x2 x4 x5 x6 x7 x8 (ix2 r j)
      = ((∑ k : Fin 768, val_main_v41 (F := Ideal) x0 x1 x4 (ix2 r k) * x7 (ix2 (⟨k.val, by omega⟩ : Fin 2304) j)
          + ∑ k : Fin 768, val_main_v28 (F := Ideal) x2 x5 x6 (ix2 r k) * x7 (ix2 (⟨768 + k.val, by omega⟩ : Fin 2304) j))
          + ∑ k : Fin 768, val_main_v48 (F := Ideal) x0 x1 x4 (ix2 r k) * x7 (ix2 (⟨1536 + k.val, by omega⟩ : Fin 2304) j))
        + x8 (ix1 j) := by
  -- the result is the contraction plus the broadcast bias, each read at (r, j)
  rw [val_main_v53_apply, val_main_v50_apply, val_main_v52_apply, val_main_v51_apply]
  -- the composed index functions are (r, k), (k, j) and j
  simp only [lidx_eq, ridx_eq, bidx_eq]
  -- the contraction's left operand is the join of the three parts
  unfold val_main_v49
  -- the float sum at Ideal is the sum of extended reals
  rw [Ideal.addf_def]
  -- split the 2304-term sum over the join into the three 768-term sums over the parts
  exact congrArg (· + x8 (ix1 j))
    (Cert.JoinSum.sum_join3 concatenates_S73728x768_S73728x768_S73728x768_S73728x2304_d1
      (val_main_v41 (F := Ideal) x0 x1 x4) (val_main_v28 (F := Ideal) x2 x5 x6) (val_main_v48 (F := Ideal) x0 x1 x4)
      x7 r j)

end Cert.ReferenceIdeal.Entry

end
-- ==== Proof.KernelIdealRun.lean ====
/-
  The idealized program's three results, as functions of its arguments.

  The result array of the projection region is, entry (r, j),
      ∑ₖ head(r,k)·W(k,j) + ∑ₖ rel(r,k)·W(768+k,j) + ∑ₖ tail(r,k)·W(1536+k,j) + bias(j),
  the three 768-term sums added left to right; the reference contracts the 2304 columns of [head | rel | tail] with W
  in one sum, which splits into those three.  The gathered operands, the index vectors, the triple ids and the mask are
  built by the same host operations in both programs (a change of float format is the identity over the extended
  reals), so each is the reference's value of the same arguments.
-/
import proofs.«129182_j25692494364677_1_alg».proof.Proof.KernelIdealRegion
import proofs.«129182_j25692494364677_1_alg».proof.Proof.KernelIdealFinal
import proofs.«129182_j25692494364677_1_alg».proof.Proof.KernelIdealWeights
import proofs.«129182_j25692494364677_1_alg».proof.Proof.KernelIdealEntry
import proofs.«129182_j25692494364677_1_alg».proof.Proof.KernelIdealEdge
import proofs.«129182_j25692494364677_1_alg».proof.Proof.KernelIdealExit
import proofs.«129182_j25692494364677_1_alg».proof.Proof.RefEntry

set_option maxRecDepth 16384

noncomputable section

namespace Cert.KernelIdeal.Around

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The reference's projection of the kernel program's own arguments. -/
abbrev refProj (c : Dev nD) := Cert.ReferenceIdeal.ReadP.val_main_v53 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8))
/-- The reference's membership mask of them. -/
abbrev refMask (c : Dev nD) := Cert.ReferenceIdeal.ReadP.val_main_v84 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3))
/-- The reference's triple ids of them. -/
abbrev refIds (c : Dev nD) := Cert.ReferenceIdeal.ReadP.val_main_v71 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))

/-- After the 36 write-backs the result array is the reference's projection: entry by entry the three sums over the
    row blocks of the weight are the one sum over the joined columns. -/
theorem result_is_reference (c : Dev nD) : (regionData (F := Ideal) m 0 c).arrAt 7 cfg0.N = refProj m c := by
  rw [final_array]
  funext i
  obtain ⟨r, j, rfl⟩ : ∃ (r : Fin 73728) (j : Fin 768), i = ix2 r j := ⟨i 0, i 1, eq_ix2 i⟩
  rw [projAll_apply]
  refine Eq.trans ?_ (Cert.ReferenceIdeal.Entry.result_apply _ _ _ _ _ _ _ _ r j).symm
  rw [entry_v43, entry_v30, entry_v50]
  refine congrArg₂ (· + ·) (congrArg₂ (· + ·) (congrArg₂ (· + ·) ?_ ?_) ?_) (entry_v57 m c j)
  · exact Finset.sum_congr rfl fun k _ => by rw [entry_v52 m c k j]
  · exact Finset.sum_congr rfl fun k _ => by rw [entry_v54 m c k j]
  · exact Finset.sum_congr rfl fun k _ => by rw [entry_v56 m c k j]

/-- THE VALUE RUN: every weakly fair execution ends with the three results at the reference's values of the arguments,
    the arguments as launched. -/
theorem value_run : θ_run defs (onTc (τ := τ) (main (F := Ideal))) ⟨m, fun _ => 0, ρ⟩ (fun r => ∀ c : Dev nD,
      r.2.mem ((c.tc : Thread nD τ).loc main_v58) = refProj m c
      ∧ r.2.mem ((c.tc : Thread nD τ).loc main_v89) = refMask m c
      ∧ r.2.mem ((c.tc : Thread nD τ).loc main_v76) = refIds m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).1 7).trans (result_is_reference m c),
     ((h c).2 main_v89 (Pipeline.mem_restRefs_of main_v89 (by decide) (by decide))).trans (exit_v89 m (regionData m) c),
     ((h c).2 main_v76 (Pipeline.mem_restRefs_of main_v76 (by decide) (by decide))).trans (exit_v76 m (regionData m) c),
     kept_of_run m main_arg0 (by decide) (by decide) arg0_before arg0_later r h c,
     kept_of_run m main_arg1 (by decide) (by decide) arg1_before arg1_later r h c,
     kept_of_run m main_arg2 (by decide) (by decide) arg2_before arg2_later r h c,
     kept_of_run m main_arg3 (by decide) (by decide) arg3_before arg3_later r h c,
     kept_of_run m main_arg4 (by decide) (by decide) arg4_before arg4_later r h c,
     kept_of_run m main_arg5 (by decide) (by decide) arg5_before arg5_later r h c,
     kept_of_run m main_arg6 (by decide) (by decide) arg6_before arg6_later r h c,
     kept_of_run m main_arg7 (by decide) (by decide) arg7_before arg7_later r h c,
     kept_of_run m main_arg8 (by decide) (by decide) arg8_before arg8_later r h c⟩) (run_main m ρ)

end Cert.KernelIdeal.Around

end
-- ==== Proof.lean ====
/-
  The certificate.  Both printed programs run (the projection region between two stretches of host operations) and
  leave their arguments alone; the reference is a straight line of host operations; the idealization rewrote nothing;
  and over the extended reals the kernel's three results are the reference's: the projection because a 2304-term
  contraction of [head | rel | tail] splits into the kernel's three 768-term ones, the mask and the triple ids because
  both programs build them by the same operations.
-/
import proofs.«129182_j25692494364677_1_alg».proof.Defs
import proofs.«129182_j25692494364677_1_alg».proof.Proof.Gen.Kernel
import proofs.«129182_j25692494364677_1_alg».proof.Proof.Gen.KernelIdeal
import proofs.«129182_j25692494364677_1_alg».proof.Proof.Gen.ReferenceIdeal
import proofs.«129182_j25692494364677_1_alg».proof.Proof.Gen.Pre_finite_inputs
import proofs.«129182_j25692494364677_1_alg».proof.Proof.RefStraight
import proofs.«129182_j25692494364677_1_alg».proof.Proof.KernelRegion
import proofs.«129182_j25692494364677_1_alg».proof.Proof.KernelIdealRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Around.frame m ρ

theorem frame_kernel_ideal : Cert.frame_KernelIdeal := fun m ρ _ => Cert.KernelIdeal.Around.frame m ρ

/-- The reference's run with its results dropped. -/
theorem frame_reference : Cert.frame_ReferenceIdeal := fun m ρ _ =>
  (θ_run Cert.ReferenceIdeal.defs _ _).mono (fun _ h c => (h c).2.2.2) (Cert.ReferenceIdeal.Straight.run m ρ)

/-- The ideal pass rewrote nothing. -/
theorem preserves : Cert.preserves_Kernel_KernelIdeal := trivial

/-- Both runs end at the reference's values of the kernel program's arguments, with which the reference's agree. -/
theorem algebraic : Cert.algebraic_KernelIdeal_ReferenceIdeal := by
  intro m ρ m' ρ' _ hagree
  refine ⟨fun c => Cert.KernelIdeal.Around.refProj m c, fun c => Cert.KernelIdeal.Around.refMask m c,
    fun c => Cert.KernelIdeal.Around.refIds m c, Cert.KernelIdeal.Around.value_run m ρ, ?_⟩
  refine (θ_run Cert.ReferenceIdeal.defs _ _).mono (fun r h c => ?_) (Cert.ReferenceIdeal.Straight.run m' ρ')
  obtain ⟨e0, e1, e2, e3, e4, e5, e6, e7, e8⟩ := hagree c
  refine ⟨?_, ?_, ?_, (h c).2.2.2⟩
  · rw [(h c).1, e0, e1, e2, e4, e5, e6, e7, e8]
  · rw [(h c).2.1, e0, e1, e3]
  · rw [(h c).2.2.1, e0, e1, e2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
